-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S2048x32 : Shape := ⟨2, ![2048, 32]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S2048x32 : S_.BroadcastsInDim S2048x32 (![] : Fin 0 → Fin S2048x32.rank)
  reducesTo_S2048x32_S_d0_1 : S2048x32.ReducesTo [0, 1] S_

variable [Facts]

def fn_part1 {F : FTy → Type} [FloatOps F] (main_arg3 : IVec S2048x32 32) (main_v13 : IVec S_ 1) (main_v15 : IVec S2048x32 1) (main_c_5 : IVec S_ 1) : IVec S_ 1 :=
  let main_v16 : IVec S_ 1 := (fun x v => Host.reduce IntOp.andi x v reducesTo_S2048x32_S_d0_1 h_S_) main_v15 main_c_5
  let main_v17 : IVec S_ 1 := andi main_v13 main_v16
  let main_c_6 : IVec S_ 32 := constantI S_ 32 2048#32
  let main_v18 : IVec S2048x32 32 := broadcastInDim S2048x32 ![] bcast_S_S2048x32 main_c_6
  let main_v19 : IVec S2048x32 1 := cmpi .slt main_arg3 main_v18
  let main_c_7 : IVec S_ 1 := constantI S_ 1 1#1
  let main_v20 : IVec S_ 1 := (fun x v => Host.reduce IntOp.andi x v reducesTo_S2048x32_S_d0_1 h_S_) main_v19 main_c_7
  let main_v21 : IVec S_ 1 := andi main_v17 main_v20
  main_v21

def fn {F : FTy → Type} [FloatOps F] (main_arg0 : FVec F S8x2048x64 .f32) (main_arg1 : FVec F S8x2048x2048 .f32) (main_arg2 : FVec F S8x2048x2048 .f32) (main_arg3 : IVec S2048x32 32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_c_4 : IVec S_ 32 := constantI S_ 32 0#32
  let main_v14 : IVec S2048x32 32 := broadcastInDim S2048x32 ![] bcast_S_S2048x32 main_c_4
  let main_v15 : IVec S2048x32 1 := cmpi .sge main_arg3 main_v14
  let main_c_5 : IVec S_ 1 := constantI S_ 1 1#1
  fn_part1 (F := F) main_arg3 main_v13 main_v15 main_c_5
-- ==== Kernel.lean ====
abbrev S8x2048x64 : Shape := ⟨3, ![8, 2048, 64]⟩
abbrev S8x2048x2048 : Shape := ⟨3, ![8, 2048, 2048]⟩
abbrev S2048x32 : Shape := ⟨2, ![2048, 32]⟩
abbrev S8x2048x32x64 : Shape := ⟨4, ![8, 2048, 32, 64]⟩
abbrev S8x2048x32x32 : Shape := ⟨4, ![8, 2048, 32, 32]⟩
abbrev S1x2048x2048 : Shape := ⟨3, ![1, 2048, 2048]⟩
abbrev S1x2048x64 : Shape := ⟨3, ![1, 2048, 64]⟩
abbrev S16x32 : Shape := ⟨2, ![16, 32]⟩
abbrev S1x16x32x64 : Shape := ⟨4, ![1, 16, 32, 64]⟩
abbrev S1x16x32x32 : Shape := ⟨4, ![1, 16, 32, 32]⟩
abbrev S16x32x2048 : Shape := ⟨3, ![16, 32, 2048]⟩
abbrev S16x32x1 : Shape := ⟨3, ![16, 32, 1]⟩
abbrev S512x2048 : Shape := ⟨2, ![512, 2048]⟩
abbrev S16x2048x32 : Shape := ⟨3, ![16, 2048, 32]⟩
abbrev S16x1x32 : Shape := ⟨3, ![16, 1, 32]⟩
abbrev S2048x64 : Shape := ⟨2, ![2048, 64]⟩
abbrev S2048x2048 : Shape := ⟨2, ![2048, 2048]⟩
abbrev S512x64 : Shape := ⟨2, ![512, 64]⟩
abbrev S16x32x64 : Shape := ⟨3, ![16, 32, 64]⟩
abbrev S16x32x32 : Shape := ⟨3, ![16, 32, 32]⟩

abbrev nBuf : Space → Nat
  | .hbm => 10
  | .vmem => 11
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x2048, .f32⟩
  | .hbm, ⟨3, _⟩ => ⟨S2048x32, .i32⟩
  | .hbm, ⟨4, _⟩ => ⟨S8x2048x64, .bf16⟩
  | .hbm, ⟨5, _⟩ => ⟨S8x2048x2048, .bf16⟩
  | .hbm, ⟨6, _⟩ => ⟨S8x2048x2048, .bf16⟩
  | .hbm, ⟨7, _⟩ => ⟨S8x2048x32x64, .f32⟩
  | .hbm, ⟨8, _⟩ => ⟨S8x2048x32x32, .f32⟩
  | .hbm, ⟨9, _⟩ => ⟨S8x2048x32x32, .f32⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x64, .bf16⟩
  | .local _ .vmem, ⟨3, _⟩ => ⟨S16x32, .i32⟩
  | .local _ .vmem, ⟨4, _⟩ => ⟨S16x32, .i32⟩
  | .local _ .vmem, ⟨5, _⟩ => ⟨S1x16x32x64, .f32⟩
  | .local _ .vmem, ⟨6, _⟩ => ⟨S1x16x32x64, .f32⟩
  | .local _ .vmem, ⟨7, _⟩ => ⟨S1x16x32x32, .f32⟩
  | .local _ .vmem, ⟨8, _⟩ => ⟨S1x16x32x32, .f32⟩
  | .local _ .vmem, ⟨9, _⟩ => ⟨S1x16x32x32, .f32⟩
  | .local _ .vmem, ⟨10, _⟩ => ⟨S1x16x32x32, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S1x2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S16x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x16x32x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x32x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  iota_S16x32x2048_d2_w32 : S16x32x2048.Iotas .tc 32 [2]
  shapeCasts_S16x32_S16x32x1 : S16x32.ShapeCasts S16x32x1
  broadcasts_S16x32x1_S16x32x2048 : S16x32x1.Broadcasts S16x32x2048
  natLt_1_32 : 1 < 32
  shapeCasts_S16x32x2048_S512x2048 : S16x32x2048.ShapeCasts S512x2048
  iota_S16x2048x32_d1_w32 : S16x2048x32.Iotas .tc 32 [1]
  shapeCasts_S16x32_S16x1x32 : S16x32.ShapeCasts S16x1x32
  broadcasts_S16x1x32_S16x2048x32 : S16x1x32.Broadcasts S16x2048x32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S512x64_S16x32x64 : S512x64.ShapeCasts S16x32x64
  inb_S1x16x32x64_S1x16x32x64_0_0_0_0 : ∀ a, (![0, 0, 0, 0] : Fin 4 → Nat) a + S1x16x32x64.size a ≤ S1x16x32x64.size a
  h_S1x16x32x64 : 0 < S1x16x32x64.numel
  shapeCasts_S1x16x32x64_S16x32x64 : S1x16x32x64.ShapeCasts S16x32x64
  shapeCasts_S16x32x64_S1x16x32x64 : S16x32x64.ShapeCasts S1x16x32x64
  shapeCasts_S512x2048_S16x32x2048 : S512x2048.ShapeCasts S16x32x2048
  inb_S1x16x32x32_S1x16x32x32_0_0_0_0 : ∀ a, (![0, 0, 0, 0] : Fin 4 → Nat) a + S1x16x32x32.size a ≤ S1x16x32x32.size a
  h_S1x16x32x32 : 0 < S1x16x32x32.numel
  shapeCasts_S1x16x32x32_S16x32x32 : S1x16x32x32.ShapeCasts S16x32x32
  shapeCasts_S16x32x32_S1x16x32x32 : S16x32x32.ShapeCasts S1x16x32x32
  dot_S512x2048_S2048x64_S512x64_1_0_0_1_n_n_wf : DotDims.WF S512x2048 S2048x64 S512x64 [1] [0] [0] [1] [] []
  dot_S512x2048_S2048x2048_S512x2048_1_0_0_1_n_n_wf : DotDims.WF S512x2048 S2048x2048 S512x2048 [1] [0] [0] [1] [] []
  dot_S16x32x2048_S16x2048x32_S16x32x32_2_1_1_2_0_0_wf : DotDims.WF S16x32x2048 S16x2048x32 S16x32x32 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .bf16 = 32 ∨ (Rect.block (s := S8x2048x2048) S1x2048x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x2048.size a ≤ S8x2048x2048.size a
  hwx0_1 : ∀ i : grid0.Coords, EltTy.bits .bf16 = 32 ∨ (Rect.block (s := S8x2048x2048) S1x2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .bf16 = 32 ∨ (Rect.block (s := S8x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S2048x32.size a
  hwx0_3 : ∀ i : grid0.Coords, EltTy.bits .i32 = 32 ∨ (Rect.block (s := S2048x32) S16x32.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x32x64.size a ≤ S8x2048x32x64.size a
  hwx0_4 : ∀ i : grid0.Coords, EltTy.bits .f32 = 32 ∨ (Rect.block (s := S8x2048x32x64) S1x16x32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x32x32.size a ≤ S8x2048x32x32.size a
  hwx0_5 : ∀ i : grid0.Coords, EltTy.bits .f32 = 32 ∨ (Rect.block (s := S8x2048x32x32) S1x16x32x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x32x32.size a ≤ S8x2048x32x32.size a
  hwx0_6 : ∀ i : grid0.Coords, EltTy.bits .f32 = 32 ∨ (Rect.block (s := S8x2048x32x32) S1x16x32x32.size (cc0_transform_6 i) (hinb0_6 i)).WholeWords (EltTy.packing .f32)

variable [Facts₀]

def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S16x32x2048_S16x2048x32_S16x32x32_2_1_1_2_0_0 : DotDims S16x32x2048 S16x2048x32 S16x32x32 where
  lhsContracting := [2]
  rhsContracting := [1]
  lhsNonContracting := [1]
  rhsNonContracting := [2]
  lhsBatch := [0]
  rhsBatch := [0]
  wf := dot_S16x32x2048_S16x2048x32_S16x32x32_2_1_1_2_0_0_wf

abbrev win0_0 : Pipeline.Window sig grid0 :=
  Pipeline.Window.ofSpec (Memref.whole main_v1) S1x2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x16x32x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x16x32x32.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x16x32x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S2048x32 : Shape := ⟨2, ![2048, 32]⟩
abbrev S_ : Shape := ⟨0, ![]⟩
abbrev S2048x32x1 : Shape := ⟨3, ![2048, 32, 1]⟩
abbrev S8x2048x32x64 : Shape := ⟨4, ![8, 2048, 32, 64]⟩
abbrev S2048x1x32 : Shape := ⟨3, ![2048, 1, 32]⟩
abbrev S2048x32x32 : Shape := ⟨3, ![2048, 32, 32]⟩
abbrev S2048x32x32x1 : Shape := ⟨4, ![2048, 32, 32, 1]⟩
abbrev S2048x32x32x2 : Shape := ⟨4, ![2048, 32, 32, 2]⟩
abbrev S8x2048x32x32 : Shape := ⟨4, ![8, 2048, 32, 32]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S8x2048x2048, .f32⟩
  | .hbm, ⟨3, _⟩ => ⟨S2048x32, .i32⟩
  | .hbm, ⟨4, _⟩ => ⟨S_, .i32⟩
  | .hbm, ⟨5, _⟩ => ⟨S2048x32, .i32⟩
  | .hbm, ⟨6, _⟩ => ⟨S2048x32, .i1⟩
  | .hbm, ⟨7, _⟩ => ⟨S_, .i32⟩
  | .hbm, ⟨8, _⟩ => ⟨S2048x32, .i32⟩
  | .hbm, ⟨9, _⟩ => ⟨S2048x32, .i32⟩
  | .hbm, ⟨10, _⟩ => ⟨S2048x32, .i32⟩
  | .hbm, ⟨11, _⟩ => ⟨S2048x32x1, .i32⟩
  | .hbm, ⟨12, _⟩ => ⟨S8x2048x32x64, .f32⟩
  | .hbm, ⟨13, _⟩ => ⟨S2048x32x1, .i32⟩
  | .hbm, ⟨14, _⟩ => ⟨S2048x1x32, .i32⟩
  | .hbm, ⟨15, _⟩ => ⟨S_, .i32⟩
  | .hbm, ⟨16, _⟩ => ⟨S2048x32x1, .i32⟩
  | .hbm, ⟨17, _⟩ => ⟨S2048x32x1, .i1⟩
  | .hbm, ⟨18, _⟩ => ⟨S_, .i32⟩
  | .hbm, ⟨19, _⟩ => ⟨S2048x32x1, .i32⟩
  | .hbm, ⟨20, _⟩ => ⟨S2048x32x1, .i32⟩
  | .hbm, ⟨21, _⟩ => ⟨S2048x32x1, .i32⟩
  | .hbm, ⟨22, _⟩ => ⟨S_, .i32⟩
  | .hbm, ⟨23, _⟩ => ⟨S2048x1x32, .i32⟩
  | .hbm, ⟨24, _⟩ => ⟨S2048x1x32, .i1⟩
  | .hbm, ⟨25, _⟩ => ⟨S_, .i32⟩
  | .hbm, ⟨26, _⟩ => ⟨S2048x1x32, .i32⟩
  | .hbm, ⟨27, _⟩ => ⟨S2048x1x32, .i32⟩
  | .hbm, ⟨28, _⟩ => ⟨S2048x1x32, .i32⟩
  | .hbm, ⟨29, _⟩ => ⟨S2048x32x32, .i32⟩
  | .hbm, ⟨30, _⟩ => ⟨S2048x32x32, .i32⟩
  | .hbm, ⟨31, _⟩ => ⟨S2048x32x32x1, .i32⟩
  | .hbm, ⟨32, _⟩ => ⟨S2048x32x32x1, .i32⟩
  | .hbm, ⟨33, _⟩ => ⟨S2048x32x32x2, .i32⟩
  | .hbm, ⟨34, _⟩ => ⟨S8x2048x32x32, .f32⟩
  | .hbm, ⟨35, _⟩ => ⟨S_, .i32⟩
  | .hbm, ⟨36, _⟩ => ⟨S2048x32x1, .i32⟩
  | .hbm, ⟨37, _⟩ => ⟨S2048x32x1, .i1⟩
  | .hbm, ⟨38, _⟩ => ⟨S_, .i32⟩
  | .hbm, ⟨39, _⟩ => ⟨S2048x32x1, .i32⟩
  | .hbm, ⟨40, _⟩ => ⟨S2048x32x1, .i32⟩
  | .hbm, ⟨41, _⟩ => ⟨S2048x32x1, .i32⟩
  | .hbm, ⟨42, _⟩ => ⟨S_, .i32⟩
  | .hbm, ⟨43, _⟩ => ⟨S2048x1x32, .i32⟩
  | .hbm, ⟨44, _⟩ => ⟨S2048x1x32, .i1⟩
  | .hbm, ⟨45, _⟩ => ⟨S_, .i32⟩
  | .hbm, ⟨46, _⟩ => ⟨S2048x1x32, .i32⟩
  | .hbm, ⟨47, _⟩ => ⟨S2048x1x32, .i32⟩
  | .hbm, ⟨48, _⟩ => ⟨S2048x1x32, .i32⟩
  | .hbm, ⟨49, _⟩ => ⟨S2048x32x32, .i32⟩
  | .hbm, ⟨50, _⟩ => ⟨S2048x32x32, .i32⟩
  | .hbm, ⟨51, _⟩ => ⟨S2048x32x32x1, .i32⟩
  | .hbm, ⟨52, _⟩ => ⟨S2048x32x32x1, .i32⟩
  | .hbm, ⟨53, _⟩ => ⟨S2048x32x32x2, .i32⟩
  | .hbm, ⟨54, _⟩ => ⟨S8x2048x32x32, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  bcast_S_S2048x32 : S_.BroadcastsInDim S2048x32 (![] : Fin 0 → Fin S2048x32.rank)
  bcast_S2048x32_S2048x32x1_0_1 : S2048x32.BroadcastsInDim S2048x32x1 (![0, 1] : Fin 2 → Fin S2048x32x1.rank)
  bcast_S2048x32_S2048x1x32_0_2 : S2048x32.BroadcastsInDim S2048x1x32 (![0, 2] : Fin 2 → Fin S2048x1x32.rank)
  bcast_S_S2048x32x1 : S_.BroadcastsInDim S2048x32x1 (![] : Fin 0 → Fin S2048x32x1.rank)
  bcast_S_S2048x1x32 : S_.BroadcastsInDim S2048x1x32 (![] : Fin 0 → Fin S2048x1x32.rank)
  bcast_S2048x32x1_S2048x32x32_0_1_2 : S2048x32x1.BroadcastsInDim S2048x32x32 (![0, 1, 2] : Fin 3 → Fin S2048x32x32.rank)
  bcast_S2048x1x32_S2048x32x32_0_1_2 : S2048x1x32.BroadcastsInDim S2048x32x32 (![0, 1, 2] : Fin 3 → Fin S2048x32x32.rank)
  bcast_S2048x32x32_S2048x32x32x1_0_1_2 : S2048x32x32.BroadcastsInDim S2048x32x32x1 (![0, 1, 2] : Fin 3 → Fin S2048x32x32x1.rank)
  concatenates_S2048x32x32x1_S2048x32x32x1_S2048x32x32x2_d3 : Shape.Concatenates [S2048x32x32x1, S2048x32x32x1] S2048x32x32x2 3
  gather_S8x2048x64_S2048x32x1_S8x2048x32x64_03_1_n_n_1_2_8164_wf : GatherDims.WF S8x2048x64 S2048x32x1 S8x2048x32x64 [0, 3] [1] [] [1] [] 2 ![8, 1, 64]
  gather_S8x2048x2048_S2048x32x32x2_S8x2048x32x32_0_12_n_n_12_3_811_wf : GatherDims.WF S8x2048x2048 S2048x32x32x2 S8x2048x32x32 [0] [1, 2] [] [1, 2] [] 3 ![8, 1, 1]

variable [Facts₀]

def gather_S8x2048x64_S2048x32x1_S8x2048x32x64_03_1_n_n_1_2_8164 : GatherDims S8x2048x64 S2048x32x1 S8x2048x32x64 where
  offsetDims := [0, 3]
  collapsedSliceDims := [1]
  operandBatchingDims := []
  startIndicesBatchingDims := []
  startIndexMap := [1]
  indexVectorDim := 2
  sliceSizes := ![8, 1, 64]
  wf := gather_S8x2048x64_S2048x32x1_S8x2048x32x64_03_1_n_n_1_2_8164_wf
def gather_S8x2048x2048_S2048x32x32x2_S8x2048x32x32_0_12_n_n_12_3_811 : GatherDims S8x2048x2048 S2048x32x32x2 S8x2048x32x32 where
  offsetDims := [0]
  collapsedSliceDims := [1, 2]
  operandBatchingDims := []
  startIndicesBatchingDims := []
  startIndexMap := [1, 2]
  indexVectorDim := 3
  sliceSizes := ![8, 1, 1]
  wf := gather_S8x2048x2048_S2048x32x32x2_S8x2048x32x32_0_12_n_n_12_3_811_wf

class Facts : Prop extends Facts₀ where

variable [Facts]
-- ==== Proof.Spec.lean ====
/-
  Neighbourhood windows of a graph, as functions of the argument arrays.

  A neighbour table lists, for each of 2048 vertices, 32 vertex numbers.  The window of vertex n
  gathers the feature rows of its neighbours (entry (b, n, j, f) is feature f of neighbour j of n
  in batch b) and the square sub-matrix of a vertex-by-vertex matrix on its neighbours (entry
  (b, n, j, k) is the matrix entry at (neighbour j of n, neighbour k of n) in batch b).

  A table entry is a 32-bit word.  `node w` is the vertex it names: the word read as a signed
  number and clamped into 0 … 2047.  `IsVertex w` says the word already is a vertex number,
  0 ≤ w < 2048 read signed; then `node w` is the word itself, and comparing the word with the
  numbers 0 … 2047 finds `node w` and nothing else.
-/
import Idealize.ShloMosaic.PureOps.Ideal
import Idealize.ShloMosaic.Lib.ValueIdx

noncomputable section

namespace Cert.Neighbourhoods

open Idealize.ShloMosaic Idealize.ShloMosaic.ValueIdx

/-- The vertex a table word names: read signed, clamped into 0 … 2047. -/
def node (w : BitVec 32) : Fin 2048 := ⟨min w.toInt.toNat 2047, by omega⟩

/-- The word is a vertex number: 0 ≤ w < 2048, read signed. -/
def IsVertex (w : BitVec 32) : Prop := 0 ≤ w.toInt ∧ w.toInt < 2048

/-- A vertex number read signed is the word read unsigned. -/
theorem toInt_of_isVertex {w : BitVec 32} (h : IsVertex w) : w.toInt = (w.toNat : Int) := by
  obtain ⟨h0, h1⟩ := h
  rw [BitVec.toInt_eq_toNat_cond] at h0 h1 ⊢
  split at h0 <;> split <;> omega

/-- The vertex a vertex number names is the number itself. -/
theorem node_val_of_isVertex {w : BitVec 32} (h : IsVertex w) : (node w).val = w.toNat := by
  have e := toInt_of_isVertex h
  obtain ⟨h0, h1⟩ := h
  show min w.toInt.toNat 2047 = w.toNat
  omega

/-- Comparing a vertex number with the numbers 0 … 2047 finds the vertex it names and no other. -/
theorem eq_ofNat_iff {w : BitVec 32} (h : IsVertex w) (n : Fin 2048) : w = BitVec.ofNat 32 n.val ↔ n = node w := by
  have hv := node_val_of_isVertex h
  constructor
  · intro e
    apply Fin.ext
    rw [hv, e, BitVec.toNat_ofNat]
    have := n.isLt
    omega
  · intro e
    rw [e, hv, BitVec.ofNat_toNat, BitVec.setWidth_eq]

/-- The feature windows: entry (b, n, j, f) is feature f of the j-th neighbour of vertex n in batch b. -/
def featWindows {α : Type} (feat : (⟨3, ![8, 2048, 64]⟩ : Shape).Idx → α)
    (ng : (⟨2, ![2048, 32]⟩ : Shape).Idx → BitVec 32) : (⟨4, ![8, 2048, 32, 64]⟩ : Shape).Idx → α :=
  fun i => feat (ix3 (i 0) (node (ng (ix2 (i 1) (i 2)))) (i 3))

/-- The pair windows of a vertex-by-vertex matrix: entry (b, n, j, k) is the matrix entry of batch b at
    (the j-th neighbour of n, the k-th neighbour of n). -/
def pairWindows {α : Type} (a : (⟨3, ![8, 2048, 2048]⟩ : Shape).Idx → α)
    (ng : (⟨2, ![2048, 32]⟩ : Shape).Idx → BitVec 32) : (⟨4, ![8, 2048, 32, 32]⟩ : Shape).Idx → α :=
  fun i => a (ix3 (i 0) (node (ng (ix2 (i 1) (i 2)))) (node (ng (ix2 (i 1) (i 3)))))

end Cert.Neighbourhoods

end
-- ==== Proof.PreRange.lean ====
/-
  The precondition read back: every word of the neighbour table is a vertex number.
-/
import proofs.«401435_j42502996361386_1_alg».proof.Proof.Spec
import proofs.«401435_j42502996361386_1_alg».proof.Pre_finite_inputs
import proofs.«401435_j42502996361386_1_alg».proof.Proof.Gen.Pre_finite_inputs
import Idealize.ShloMosaic.Lib.ReduceAll
import Idealize.ShloMosaic.Lib.ValueIdx

noncomputable section

namespace Cert.Pre_finite_inputs.Range

open Cert.Pre_finite_inputs Cert.Neighbourhoods Idealize.ShloMosaic Idealize.ShloMosaic.ValueIdx

instance : Subsingleton S_.Idx := ⟨fun a b => funext fun d => d.elim0⟩

theorem isVertex_of_pre {F : FTy → Type} [FloatOps F] (a0 : FVec F S8x2048x64 .f32) (a1 a2 : FVec F S8x2048x2048 .f32)
    (a3 : IVec S2048x32 32) (h : Cert.Pre_finite_inputs.fn (F := F) a0 a1 a2 a3 = fun _ => 1#1) (i : S2048x32.Idx) :
    IsVertex (a3 i) := by
  have h0 := congrFun h ValueIdx.ix0
  dsimp only [fn, fn_part1] at h0
  obtain ⟨h1, hlt⟩ := IntOp.andi_eq_one.1 h0
  obtain ⟨-, hge⟩ := IntOp.andi_eq_one.1 h1
  have hge' : IntOp.cmpi .sge (a3 i) 0#32 = 1#1 := Host.reduce_andi_all _ _ _ _ _ hge i
  have hlt' : IntOp.cmpi .slt (a3 i) 2048#32 = 1#1 := Host.reduce_andi_all _ _ _ _ _ hlt i
  have g := IntOp.cmpi_sge.1 hge'
  have l := IntOp.cmpi_slt.1 hlt'
  exact ⟨by simpa using g, by simpa using l⟩

end Cert.Pre_finite_inputs.Range

end
-- ==== Proof.Payload.lean ====
/-
  What the kernel body stores, read at an index.

  The body builds, from its 16 × 32 block of the neighbour table, a 0/1 selector with one row per
  (vertex of the block, neighbour slot) and one column per vertex of the graph: the entry is 1 where the
  table word equals the column's number.  Multiplying the selector by a table of rows picks, in each
  selector row, the table row the word names: all other products are 0 · x = 0 on the extended reals,
  for every x.  A second selector, laid out with the graph's vertices along its middle axis, picks
  columns the same way.
-/
import proofs.«401435_j42502996361386_1_alg».proof.Proof.Spec
import proofs.«401435_j42502996361386_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Cert.Neighbourhoods Idealize.ShloMosaic Idealize.ShloMosaic.ValueIdx

/-! ## The selectors' entries -/

/-- A comparison bit widened to a word and read as a signed number is 1 where the words agree and 0 elsewhere. -/
theorem sel_word (a b : BitVec 32) :
    (FloatOps.sitofp (F := Ideal) .f32 ((IntOp.cmpi .eq a b).setWidth 32) : Ideal .f32) = if a = b then 1 else 0 := by
  by_cases h : a = b
  · rw [if_pos h, IntOp.cmpi_eq.mpr h]
    show ((((BitVec.setWidth 32 1#1 : BitVec 32).toInt : ℤ) : ℝ) : EReal) = 1
    have e : (BitVec.setWidth 32 1#1 : BitVec 32).toInt = 1 := by decide
    rw [e]; simp
  · rw [if_neg h, eq_zero_of_ne_one (mt IntOp.cmpi_eq.mp h)]
    show ((((BitVec.setWidth 32 0#1 : BitVec 32).toInt : ℤ) : ℝ) : EReal) = 0
    have e : (BitVec.setWidth 32 0#1 : BitVec 32).toInt = 0 := by decide
    rw [e]; simp

/-- The table with a unit axis appended, copied along that axis: entry (t, j, n) is the table word (t, j). -/
theorem table_along_last (v0 : Vec Ideal S16x32 .i32) (h1 : S16x32.ShapeCasts S16x32x1) (h2 : S16x32x1.Broadcasts S16x32x2048)
    (t : Fin 16) (j : Fin 32) (n : Fin 2048) :
    broadcastTo S16x32x2048 (shapeCast S16x32x1 v0 h1) h2 (ix3 t j n) = v0 (ix2 t j) := by
  refine (broadcastTo_apply _ h2 (ix3 t j n) (ix3 t j 0) ?_).trans ?_
  · intro a
    match a with
    | ⟨0, _⟩ => rfl
    | ⟨1, _⟩ => rfl
    | ⟨2, _⟩ => rfl
  · refine shapeCast_apply _ h1 (ix3 t j 0) (ix2 t j) ?_
    rw [Shape.rowMajor_val_two, Shape.rowMajor_val_three]
    show t.val * 32 + j.val = (t.val * 32 + j.val) * 1 + 0
    omega

/-- The table with a unit axis in the middle, copied along that axis: entry (t, n, k) is the table word (t, k). -/
theorem table_along_middle (v0 : Vec Ideal S16x32 .i32) (h1 : S16x32.ShapeCasts S16x1x32) (h2 : S16x1x32.Broadcasts S16x2048x32)
    (t : Fin 16) (n : Fin 2048) (k : Fin 32) :
    broadcastTo S16x2048x32 (shapeCast S16x1x32 v0 h1) h2 (ix3 t n k) = v0 (ix2 t k) := by
  refine (broadcastTo_apply _ h2 (ix3 t n k) (ix3 t 0 k) ?_).trans ?_
  · intro a
    match a with
    | ⟨0, _⟩ => rfl
    | ⟨1, _⟩ => rfl
    | ⟨2, _⟩ => rfl
  · refine shapeCast_apply _ h1 (ix3 t 0 k) (ix2 t k) ?_
    rw [Shape.rowMajor_val_two, Shape.rowMajor_val_three]
    show t.val * 32 + k.val = (t.val * 1 + 0) * 32 + k.val
    omega

/-- The row selector at row 32·t + j and column n: 1 where the table word (t, j) is the number n. -/
theorem rowsel_apply (v0 : Vec Ideal S16x32 .i32) (t : Fin 16) (j : Fin 32) (r : Fin 512) (n : Fin 2048)
    (hr : r.val = 32 * t.val + j.val) :
    k0_pay2 (F := Ideal) v0 (ix2 r n) = if v0 (ix2 t j) = BitVec.ofNat 32 n.val then 1 else 0 := by
  unfold k0_pay2
  refine (shapeCast_apply _ _ (ix2 r n) (ix3 t j n) ?_).trans ?_
  · rw [Shape.rowMajor_val_three, Shape.rowMajor_val_two]
    show (t.val * 32 + j.val) * 2048 + n.val = r.val * 2048 + n.val
    omega
  · show FloatOps.sitofp (F := Ideal) .f32 ((IntOp.cmpi .eq
        (broadcastTo S16x32x2048 (shapeCast S16x32x1 v0 _) _ (ix3 t j n))
        (iota .tc S16x32x2048 32 [2] _ (ix3 t j n))).setWidth 32) = _
    rw [table_along_last, iota_single_apply]
    exact sel_word _ _

/-- The column selector at (t, n, k): 1 where the table word (t, k) is the number n. -/
theorem colsel_apply (v0 : Vec Ideal S16x32 .i32) (t : Fin 16) (n : Fin 2048) (k : Fin 32) :
    k0_pay3 (F := Ideal) v0 (ix3 t n k) = if v0 (ix2 t k) = BitVec.ofNat 32 n.val then 1 else 0 := by
  unfold k0_pay3
  show FloatOps.sitofp (F := Ideal) .f32 ((IntOp.cmpi .eq
      (broadcastTo S16x2048x32 (shapeCast S16x1x32 v0 _) _ (ix3 t n k))
      (iota .tc S16x2048x32 32 [1] _ (ix3 t n k))).setWidth 32) = _
  rw [table_along_middle, iota_single_apply]
  exact sel_word _ _

/-! ## The three products as sums over the 2048 vertices

Each product contracts one axis of extent 2048; at a result index the operands are read at the result's coordinates on
their other axes and at the contraction position on the contracted one. -/

theorem lhs_feat_0 (j : S512x64.Idx) (k : dot_S512x2048_S2048x64_S512x64_1_0_0_1_n_n.contr.Idx) :
    (dot_S512x2048_S2048x64_S512x64_1_0_0_1_n_n.lhsIdx j k 0).val = (j 0).val := by
  unfold DotDims.lhsIdx
  rw [dif_neg (show ¬ (0 : Fin S512x2048.rank) ∈ dot_S512x2048_S2048x64_S512x64_1_0_0_1_n_n.lhsBatch from by decide),
    dif_pos (show (0 : Fin S512x2048.rank) ∈ dot_S512x2048_S2048x64_S512x64_1_0_0_1_n_n.lhsNonContracting from by decide)]
  rfl

theorem lhs_feat_1 (j : S512x64.Idx) (k : dot_S512x2048_S2048x64_S512x64_1_0_0_1_n_n.contr.Idx) :
    (dot_S512x2048_S2048x64_S512x64_1_0_0_1_n_n.lhsIdx j k 1).val = (k ⟨0, Nat.one_pos⟩).val :=
  DotDims.lhsIdx_val_of_single dot_S512x2048_S2048x64_S512x64_1_0_0_1_n_n rfl j k

theorem rhs_feat_0 (j : S512x64.Idx) (k : dot_S512x2048_S2048x64_S512x64_1_0_0_1_n_n.contr.Idx) :
    (dot_S512x2048_S2048x64_S512x64_1_0_0_1_n_n.rhsIdx j k 0).val = (k ⟨0, Nat.one_pos⟩).val :=
  DotDims.rhsIdx_val_of_single dot_S512x2048_S2048x64_S512x64_1_0_0_1_n_n rfl j k

theorem rhs_feat_1 (j : S512x64.Idx) (k : dot_S512x2048_S2048x64_S512x64_1_0_0_1_n_n.contr.Idx) :
    (dot_S512x2048_S2048x64_S512x64_1_0_0_1_n_n.rhsIdx j k 1).val = (j 1).val := by
  unfold DotDims.rhsIdx
  rw [dif_neg (show ¬ (1 : Fin S2048x64.rank) ∈ dot_S512x2048_S2048x64_S512x64_1_0_0_1_n_n.rhsBatch from by decide),
    dif_pos (show (1 : Fin S2048x64.rank) ∈ dot_S512x2048_S2048x64_S512x64_1_0_0_1_n_n.rhsNonContracting from by decide)]
  rfl

/-- The [512, 2048] by [2048, 64] product into zero: entry (r, c) is the sum over the vertices n of left (r, n) times right (n, c). -/
theorem matmul_feat_apply (A : FVec Ideal S512x2048 .bf16) (B : FVec Ideal S2048x64 .bf16) (r : Fin 512) (c : Fin 64) :
    matmul dot_S512x2048_S2048x64_S512x64_1_0_0_1_n_n none A B (constant (F := Ideal) S512x64 .f32 0x00000000#32) (ix2 r c)
      = ∑ n : Fin 2048, A (ix2 r n) * B (ix2 n c) := by
  refine (Ideal.matmul_constant_zero_apply dot_S512x2048_S2048x64_S512x64_1_0_0_1_n_n none A B (ix2 r c)).trans ?_
  rw [← Equiv.sum_comp (contrEquiv1 dot_S512x2048_S2048x64_S512x64_1_0_0_1_n_n 2048 rfl rfl).symm]
  refine Finset.sum_congr rfl fun n _ => ?_
  have hk := contrEquiv1_symm_val dot_S512x2048_S2048x64_S512x64_1_0_0_1_n_n 2048 rfl rfl n
  have eL : dot_S512x2048_S2048x64_S512x64_1_0_0_1_n_n.lhsIdx (ix2 r c) ((contrEquiv1 dot_S512x2048_S2048x64_S512x64_1_0_0_1_n_n 2048 rfl rfl).symm n) = ix2 r n := by
    funext a
    refine Fin.ext ?_
    match a with
    | ⟨0, _⟩ => exact lhs_feat_0 _ _
    | ⟨1, _⟩ => exact (lhs_feat_1 _ _).trans hk
  have eR : dot_S512x2048_S2048x64_S512x64_1_0_0_1_n_n.rhsIdx (ix2 r c) ((contrEquiv1 dot_S512x2048_S2048x64_S512x64_1_0_0_1_n_n 2048 rfl rfl).symm n) = ix2 n c := by
    funext a
    refine Fin.ext ?_
    match a with
    | ⟨0, _⟩ => exact (rhs_feat_0 _ _).trans hk
    | ⟨1, _⟩ => exact rhs_feat_1 _ _
  rw [eL, eR]

theorem lhs_sq_0 (j : S512x2048.Idx) (k : dot_S512x2048_S2048x2048_S512x2048_1_0_0_1_n_n.contr.Idx) :
    (dot_S512x2048_S2048x2048_S512x2048_1_0_0_1_n_n.lhsIdx j k 0).val = (j 0).val := by
  unfold DotDims.lhsIdx
  rw [dif_neg (show ¬ (0 : Fin S512x2048.rank) ∈ dot_S512x2048_S2048x2048_S512x2048_1_0_0_1_n_n.lhsBatch from by decide),
    dif_pos (show (0 : Fin S512x2048.rank) ∈ dot_S512x2048_S2048x2048_S512x2048_1_0_0_1_n_n.lhsNonContracting from by decide)]
  rfl

theorem lhs_sq_1 (j : S512x2048.Idx) (k : dot_S512x2048_S2048x2048_S512x2048_1_0_0_1_n_n.contr.Idx) :
    (dot_S512x2048_S2048x2048_S512x2048_1_0_0_1_n_n.lhsIdx j k 1).val = (k ⟨0, Nat.one_pos⟩).val :=
  DotDims.lhsIdx_val_of_single dot_S512x2048_S2048x2048_S512x2048_1_0_0_1_n_n rfl j k

theorem rhs_sq_0 (j : S512x2048.Idx) (k : dot_S512x2048_S2048x2048_S512x2048_1_0_0_1_n_n.contr.Idx) :
    (dot_S512x2048_S2048x2048_S512x2048_1_0_0_1_n_n.rhsIdx j k 0).val = (k ⟨0, Nat.one_pos⟩).val :=
  DotDims.rhsIdx_val_of_single dot_S512x2048_S2048x2048_S512x2048_1_0_0_1_n_n rfl j k

theorem rhs_sq_1 (j : S512x2048.Idx) (k : dot_S512x2048_S2048x2048_S512x2048_1_0_0_1_n_n.contr.Idx) :
    (dot_S512x2048_S2048x2048_S512x2048_1_0_0_1_n_n.rhsIdx j k 1).val = (j 1).val := by
  unfold DotDims.rhsIdx
  rw [dif_neg (show ¬ (1 : Fin S2048x2048.rank) ∈ dot_S512x2048_S2048x2048_S512x2048_1_0_0_1_n_n.rhsBatch from by decide),
    dif_pos (show (1 : Fin S2048x2048.rank) ∈ dot_S512x2048_S2048x2048_S512x2048_1_0_0_1_n_n.rhsNonContracting from by decide)]
  rfl

/-- The [512, 2048] by [2048, 2048] product into zero: entry (r, c) is the sum over the vertices n of left (r, n) times right (n, c). -/
theorem matmul_sq_apply (A : FVec Ideal S512x2048 .bf16) (B : FVec Ideal S2048x2048 .bf16) (r : Fin 512) (c : Fin 2048) :
    matmul dot_S512x2048_S2048x2048_S512x2048_1_0_0_1_n_n none A B (constant (F := Ideal) S512x2048 .f32 0x00000000#32) (ix2 r c)
      = ∑ n : Fin 2048, A (ix2 r n) * B (ix2 n c) := by
  refine (Ideal.matmul_constant_zero_apply dot_S512x2048_S2048x2048_S512x2048_1_0_0_1_n_n none A B (ix2 r c)).trans ?_
  rw [← Equiv.sum_comp (contrEquiv1 dot_S512x2048_S2048x2048_S512x2048_1_0_0_1_n_n 2048 rfl rfl).symm]
  refine Finset.sum_congr rfl fun n _ => ?_
  have hk := contrEquiv1_symm_val dot_S512x2048_S2048x2048_S512x2048_1_0_0_1_n_n 2048 rfl rfl n
  have eL : dot_S512x2048_S2048x2048_S512x2048_1_0_0_1_n_n.lhsIdx (ix2 r c) ((contrEquiv1 dot_S512x2048_S2048x2048_S512x2048_1_0_0_1_n_n 2048 rfl rfl).symm n) = ix2 r n := by
    funext a
    refine Fin.ext ?_
    match a with
    | ⟨0, _⟩ => exact lhs_sq_0 _ _
    | ⟨1, _⟩ => exact (lhs_sq_1 _ _).trans hk
  have eR : dot_S512x2048_S2048x2048_S512x2048_1_0_0_1_n_n.rhsIdx (ix2 r c) ((contrEquiv1 dot_S512x2048_S2048x2048_S512x2048_1_0_0_1_n_n 2048 rfl rfl).symm n) = ix2 n c := by
    funext a
    refine Fin.ext ?_
    match a with
    | ⟨0, _⟩ => exact (rhs_sq_0 _ _).trans hk
    | ⟨1, _⟩ => exact rhs_sq_1 _ _
  rw [eL, eR]

theorem lhs_pair_0 (j : S16x32x32.Idx) (k : dot_S16x32x2048_S16x2048x32_S16x32x32_2_1_1_2_0_0.contr.Idx) :
    (dot_S16x32x2048_S16x2048x32_S16x32x32_2_1_1_2_0_0.lhsIdx j k 0).val = (j 0).val := by
  unfold DotDims.lhsIdx
  rw [dif_pos (show (0 : Fin S16x32x2048.rank) ∈ dot_S16x32x2048_S16x2048x32_S16x32x32_2_1_1_2_0_0.lhsBatch from by decide)]
  rfl

theorem lhs_pair_1 (j : S16x32x32.Idx) (k : dot_S16x32x2048_S16x2048x32_S16x32x32_2_1_1_2_0_0.contr.Idx) :
    (dot_S16x32x2048_S16x2048x32_S16x32x32_2_1_1_2_0_0.lhsIdx j k 1).val = (j 1).val := by
  unfold DotDims.lhsIdx
  rw [dif_neg (show ¬ (1 : Fin S16x32x2048.rank) ∈ dot_S16x32x2048_S16x2048x32_S16x32x32_2_1_1_2_0_0.lhsBatch from by decide),
    dif_pos (show (1 : Fin S16x32x2048.rank) ∈ dot_S16x32x2048_S16x2048x32_S16x32x32_2_1_1_2_0_0.lhsNonContracting from by decide)]
  rfl

theorem lhs_pair_2 (j : S16x32x32.Idx) (k : dot_S16x32x2048_S16x2048x32_S16x32x32_2_1_1_2_0_0.contr.Idx) :
    (dot_S16x32x2048_S16x2048x32_S16x32x32_2_1_1_2_0_0.lhsIdx j k 2).val = (k ⟨0, Nat.one_pos⟩).val :=
  DotDims.lhsIdx_val_of_single dot_S16x32x2048_S16x2048x32_S16x32x32_2_1_1_2_0_0 rfl j k

theorem rhs_pair_0 (j : S16x32x32.Idx) (k : dot_S16x32x2048_S16x2048x32_S16x32x32_2_1_1_2_0_0.contr.Idx) :
    (dot_S16x32x2048_S16x2048x32_S16x32x32_2_1_1_2_0_0.rhsIdx j k 0).val = (j 0).val := by
  unfold DotDims.rhsIdx
  rw [dif_pos (show (0 : Fin S16x2048x32.rank) ∈ dot_S16x32x2048_S16x2048x32_S16x32x32_2_1_1_2_0_0.rhsBatch from by decide)]
  rfl

theorem rhs_pair_1 (j : S16x32x32.Idx) (k : dot_S16x32x2048_S16x2048x32_S16x32x32_2_1_1_2_0_0.contr.Idx) :
    (dot_S16x32x2048_S16x2048x32_S16x32x32_2_1_1_2_0_0.rhsIdx j k 1).val = (k ⟨0, Nat.one_pos⟩).val :=
  DotDims.rhsIdx_val_of_single dot_S16x32x2048_S16x2048x32_S16x32x32_2_1_1_2_0_0 rfl j k

theorem rhs_pair_2 (j : S16x32x32.Idx) (k : dot_S16x32x2048_S16x2048x32_S16x32x32_2_1_1_2_0_0.contr.Idx) :
    (dot_S16x32x2048_S16x2048x32_S16x32x32_2_1_1_2_0_0.rhsIdx j k 2).val = (j 2).val := by
  unfold DotDims.rhsIdx
  rw [dif_neg (show ¬ (2 : Fin S16x2048x32.rank) ∈ dot_S16x32x2048_S16x2048x32_S16x32x32_2_1_1_2_0_0.rhsBatch from by decide),
    dif_pos (show (2 : Fin S16x2048x32.rank) ∈ dot_S16x32x2048_S16x2048x32_S16x32x32_2_1_1_2_0_0.rhsNonContracting from by decide)]
  rfl

/-- The product block by block, 16 blocks of [32, 2048] by [2048, 32]: entry (t, j, k) is the sum over the vertices n of
    left (t, j, n) times right (t, n, k). -/
theorem matmul_pair_apply (A : FVec Ideal S16x32x2048 .bf16) (B : FVec Ideal S16x2048x32 .bf16) (t : Fin 16) (j k : Fin 32) :
    matmul dot_S16x32x2048_S16x2048x32_S16x32x32_2_1_1_2_0_0 none A B (constant (F := Ideal) S16x32x32 .f32 0x00000000#32) (ix3 t j k)
      = ∑ n : Fin 2048, A (ix3 t j n) * B (ix3 t n k) := by
  refine (Ideal.matmul_constant_zero_apply dot_S16x32x2048_S16x2048x32_S16x32x32_2_1_1_2_0_0 none A B (ix3 t j k)).trans ?_
  rw [← Equiv.sum_comp (contrEquiv1 dot_S16x32x2048_S16x2048x32_S16x32x32_2_1_1_2_0_0 2048 rfl rfl).symm]
  refine Finset.sum_congr rfl fun n _ => ?_
  have hk := contrEquiv1_symm_val dot_S16x32x2048_S16x2048x32_S16x32x32_2_1_1_2_0_0 2048 rfl rfl n
  have eL : dot_S16x32x2048_S16x2048x32_S16x32x32_2_1_1_2_0_0.lhsIdx (ix3 t j k) ((contrEquiv1 dot_S16x32x2048_S16x2048x32_S16x32x32_2_1_1_2_0_0 2048 rfl rfl).symm n) = ix3 t j n := by
    funext a
    refine Fin.ext ?_
    match a with
    | ⟨0, _⟩ => exact lhs_pair_0 _ _
    | ⟨1, _⟩ => exact lhs_pair_1 _ _
    | ⟨2, _⟩ => exact (lhs_pair_2 _ _).trans hk
  have eR : dot_S16x32x2048_S16x2048x32_S16x32x32_2_1_1_2_0_0.rhsIdx (ix3 t j k) ((contrEquiv1 dot_S16x32x2048_S16x2048x32_S16x32x32_2_1_1_2_0_0 2048 rfl rfl).symm n) = ix3 t n k := by
    funext a
    refine Fin.ext ?_
    match a with
    | ⟨0, _⟩ => exact rhs_pair_0 _ _
    | ⟨1, _⟩ => exact (rhs_pair_1 _ _).trans hk
    | ⟨2, _⟩ => exact rhs_pair_2 _ _
  rw [eL, eR]

/-! ## One nonzero term in each sum -/

/-- Row 32·t + j of the row selector times a [2048, 64] table: the one nonzero term of the sum is at the vertex the table word
    (t, j) names, where the selector is 1; every other term is 0 · x = 0. -/
theorem pick_row_feat (v0 : Vec Ideal S16x32 .i32) (hv : ∀ i, IsVertex (v0 i)) (B : FVec Ideal S2048x64 .bf16)
    (t : Fin 16) (j : Fin 32) (r : Fin 512) (hr : r.val = 32 * t.val + j.val) (c : Fin 64) :
    matmul dot_S512x2048_S2048x64_S512x64_1_0_0_1_n_n none (k0_pay2 (F := Ideal) v0) B (constant (F := Ideal) S512x64 .f32 0x00000000#32) (ix2 r c)
      = B (ix2 (node (v0 (ix2 t j))) c) := by
  refine (matmul_feat_apply _ B r c).trans ?_
  rw [Finset.sum_eq_single (node (v0 (ix2 t j)))]
  · rw [rowsel_apply v0 t j r _ hr, if_pos ((eq_ofNat_iff (hv _) _).mpr rfl), one_mul]
  · intro n _ hn
    rw [rowsel_apply v0 t j r n hr, if_neg (fun e => hn ((eq_ofNat_iff (hv _) n).mp e)), zero_mul]
  · intro h
    exact absurd (Finset.mem_univ _) h

/-- Row 32·t + j of the row selector times a [2048, 2048] table: the one nonzero term of the sum is at the vertex the table word
    (t, j) names, where the selector is 1; every other term is 0 · x = 0. -/
theorem pick_row_sq (v0 : Vec Ideal S16x32 .i32) (hv : ∀ i, IsVertex (v0 i)) (B : FVec Ideal S2048x2048 .bf16)
    (t : Fin 16) (j : Fin 32) (r : Fin 512) (hr : r.val = 32 * t.val + j.val) (c : Fin 2048) :
    matmul dot_S512x2048_S2048x2048_S512x2048_1_0_0_1_n_n none (k0_pay2 (F := Ideal) v0) B (constant (F := Ideal) S512x2048 .f32 0x00000000#32) (ix2 r c)
      = B (ix2 (node (v0 (ix2 t j))) c) := by
  refine (matmul_sq_apply _ B r c).trans ?_
  rw [Finset.sum_eq_single (node (v0 (ix2 t j)))]
  · rw [rowsel_apply v0 t j r _ hr, if_pos ((eq_ofNat_iff (hv _) _).mpr rfl), one_mul]
  · intro n _ hn
    rw [rowsel_apply v0 t j r n hr, if_neg (fun e => hn ((eq_ofNat_iff (hv _) n).mp e)), zero_mul]
  · intro h
    exact absurd (Finset.mem_univ _) h

/-- Block t of a [16, 32, 2048] array times block t of the column selector: the one nonzero term is at the vertex the
    table word (t, k) names; every other term is x · 0 = 0. -/
theorem pick_col (v0 : Vec Ideal S16x32 .i32) (hv : ∀ i, IsVertex (v0 i)) (A : FVec Ideal S16x32x2048 .bf16)
    (t : Fin 16) (j k : Fin 32) :
    matmul dot_S16x32x2048_S16x2048x32_S16x32x32_2_1_1_2_0_0 none A (k0_pay3 (F := Ideal) v0) (constant (F := Ideal) S16x32x32 .f32 0x00000000#32) (ix3 t j k)
      = A (ix3 t j (node (v0 (ix2 t k)))) := by
  refine (matmul_pair_apply A _ t j k).trans ?_
  rw [Finset.sum_eq_single (node (v0 (ix2 t k)))]
  · rw [colsel_apply v0 t _ k, if_pos ((eq_ofNat_iff (hv _) _).mpr rfl), mul_one]
  · intro n _ hn
    rw [colsel_apply v0 t n k, if_neg (fun e => hn ((eq_ofNat_iff (hv _) n).mp e)), mul_zero]
  · intro h
    exact absurd (Finset.mem_univ _) h

/-- A [1, 2048, 2048] block viewed as a matrix. -/
theorem drop_unit_sq (v : Vec Ideal S1x2048x2048 .bf16) (h : S1x2048x2048.ShapeCasts S2048x2048) (z : Fin 1) (a b : Fin 2048) :
    shapeCast S2048x2048 v h (ix2 a b) = v (ix3 z a b) := by
  have hz : z.val = 0 := by have := z.isLt; omega
  refine shapeCast_apply _ h (ix2 a b) (ix3 z a b) ?_
  rw [Shape.rowMajor_val_three, Shape.rowMajor_val_two]
  show (z.val * 2048 + a.val) * 2048 + b.val = a.val * 2048 + b.val
  rw [hz]; omega

/-- The pair store for any [2048, 2048] matrix B: rows picked by the row selector, the result regrouped by vertex of the
    block, columns picked by the column selector: entry (t, j, k) is B at (the vertex word (t, j) names, the vertex word
    (t, k) names). -/
theorem pair_core (v0 : Vec Ideal S16x32 .i32) (hv : ∀ i, IsVertex (v0 i)) (B : FVec Ideal S2048x2048 .bf16)
    (h1 : S512x2048.ShapeCasts S16x32x2048) (h2 : FTy.bits .bf16 < FTy.bits .f32) (h3 : S16x32x32.ShapeCasts S1x16x32x32)
    (z : Fin 1) (t : Fin 16) (j k : Fin 32) :
    shapeCast S1x16x32x32
        (matmul dot_S16x32x2048_S16x2048x32_S16x32x32_2_1_1_2_0_0 none
          (truncf .bf16 (shapeCast S16x32x2048
            (matmul dot_S512x2048_S2048x2048_S512x2048_1_0_0_1_n_n none (k0_pay2 (F := Ideal) v0) B
              (constant (F := Ideal) S512x2048 .f32 0x00000000#32)) h1) h2)
          (k0_pay3 (F := Ideal) v0) (constant (F := Ideal) S16x32x32 .f32 0x00000000#32)) h3 (ix4 z t j k)
      = B (ix2 (node (v0 (ix2 t j))) (node (v0 (ix2 t k)))) := by
  have hz : z.val = 0 := by have := z.isLt; omega
  have ht := t.isLt
  have hj := j.isLt
  refine (shapeCast_apply _ h3 (ix4 z t j k) (ix3 t j k) ?_).trans ?_
  · rw [Shape.rowMajor_val_three, Shape.rowMajor_val_four]
    show (t.val * 32 + j.val) * 32 + k.val = ((z.val * 16 + t.val) * 32 + j.val) * 32 + k.val
    rw [hz]; omega
  refine (pick_col v0 hv _ t j k).trans ?_
  refine (truncf_apply _ h2 _).trans ?_
  refine (shapeCast_apply _ h1 (ix3 t j (node (v0 (ix2 t k))))
    (ix2 (⟨32 * t.val + j.val, by omega⟩ : Fin 512) (node (v0 (ix2 t k)))) ?_).trans ?_
  · rw [Shape.rowMajor_val_two, Shape.rowMajor_val_three]
    show (32 * t.val + j.val) * 2048 + (node (v0 (ix2 t k))).val = (t.val * 32 + j.val) * 2048 + (node (v0 (ix2 t k))).val
    omega
  exact pick_row_sq v0 hv B t j _ rfl _

/-! ## The three stores -/

/-- The feature store: entry (t, j, f) is feature f of the row the table word (t, j) names. -/
theorem feat_payload (v0 : Vec Ideal S16x32 .i32) (v16 : Vec Ideal S1x2048x64 .bf16) (hv : ∀ i, IsVertex (v0 i))
    (z : Fin 1) (t : Fin 16) (j : Fin 32) (f : Fin 64) :
    k0_pay5 (F := Ideal) v0 v16 (ix4 z t j f) = v16 (ix3 z (node (v0 (ix2 t j))) f) := by
  have hz : z.val = 0 := by have := z.isLt; omega
  have ht := t.isLt
  have hj := j.isLt
  unfold k0_pay5
  refine (shapeCast_apply _ _ (ix4 z t j f) (ix3 t j f) ?_).trans ?_
  · rw [Shape.rowMajor_val_three, Shape.rowMajor_val_four]
    show (t.val * 32 + j.val) * 64 + f.val = ((z.val * 16 + t.val) * 32 + j.val) * 64 + f.val
    rw [hz]; omega
  refine (shapeCast_apply _ _ (ix3 t j f) (ix2 (⟨32 * t.val + j.val, by omega⟩ : Fin 512) f) ?_).trans ?_
  · rw [Shape.rowMajor_val_two, Shape.rowMajor_val_three]
    show (32 * t.val + j.val) * 64 + f.val = (t.val * 32 + j.val) * 64 + f.val
    omega
  refine (pick_row_feat v0 hv _ t j _ rfl f).trans ?_
  refine shapeCast_apply _ _ (ix2 (node (v0 (ix2 t j))) f) (ix3 z (node (v0 (ix2 t j))) f) ?_
  rw [Shape.rowMajor_val_three, Shape.rowMajor_val_two]
  show (z.val * 2048 + (node (v0 (ix2 t j))).val) * 64 + f.val = (node (v0 (ix2 t j))).val * 64 + f.val
  rw [hz]; omega

/-- The first pair store: entry (t, j, k) is the matrix entry at (the vertex word (t, j) names, the vertex word (t, k) names). -/
theorem adj_payload (v0 : Vec Ideal S16x32 .i32) (v18 : Vec Ideal S1x2048x2048 .bf16) (hv : ∀ i, IsVertex (v0 i))
    (z : Fin 1) (t : Fin 16) (j k : Fin 32) :
    k0_pay6 (F := Ideal) v0 v18 (ix4 z t j k) = v18 (ix3 z (node (v0 (ix2 t j))) (node (v0 (ix2 t k)))) := by
  unfold k0_pay6
  refine (pair_core v0 hv _ _ _ _ z t j k).trans ?_
  exact drop_unit_sq v18 _ z _ _

/-- The second pair store, the same function of the other matrix. -/
theorem edges_payload (v0 : Vec Ideal S16x32 .i32) (v20 : Vec Ideal S1x2048x2048 .bf16) (hv : ∀ i, IsVertex (v0 i))
    (z : Fin 1) (t : Fin 16) (j k : Fin 32) :
    k0_pay1 (F := Ideal) (k0_pay2 v0) (k0_pay3 v0) (k0_pay4 v20) (ix4 z t j k)
      = v20 (ix3 z (node (v0 (ix2 t j))) (node (v0 (ix2 t k)))) := by
  unfold k0_pay1 k0_pay4
  refine (pair_core v0 hv _ _ _ _ z t j k).trans ?_
  exact drop_unit_sq v20 _ z _ _

end Cert.KernelIdeal.Payload

end
-- ==== Proof.Blocks.lean ====
/-
  From blocks to arrays: each of the kernel's three output arrays is the window function of the arguments.

  Grid point t = 128·b + s handles batch b and the sixteen vertices 16·s … 16·s + 15.  It reads batch b of
  the two matrices and of the features (whole), rows 16·s … 16·s + 15 of the neighbour table, and writes
  block (b, s) of each output: the windows of those sixteen vertices.  The blocks tile the outputs.
-/
import proofs.«401435_j42502996361386_1_alg».proof.Proof.Spec
import proofs.«401435_j42502996361386_1_alg».proof.Proof.Payload
import proofs.«401435_j42502996361386_1_alg».proof.Proof.Gen.KernelIdeal.Frame
import proofs.«401435_j42502996361386_1_alg».proof.Proof.Gen.KernelIdeal.Value
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Windows

open Cert.KernelIdeal Cert.KernelIdeal.Gen Cert.KernelIdeal.Value Cert.Neighbourhoods Idealize.ShloMosaic.ValueIdx

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Which block of each array point t = 128·b + s uses: batch b of the matrices and the features, row block s of
    the table, block (b, s) of each output. -/
theorem index_facts : ∀ t : Fin cfg0.N,
    (win0_0.index t (0 : Fin 3) = t.val / 128 ∧ win0_0.index t (1 : Fin 3) = 0 ∧ win0_0.index t (2 : Fin 3) = 0)
    ∧ (win0_1.index t (0 : Fin 3) = t.val / 128 ∧ win0_1.index t (1 : Fin 3) = 0 ∧ win0_1.index t (2 : Fin 3) = 0)
    ∧ (win0_2.index t (0 : Fin 3) = t.val / 128 ∧ win0_2.index t (1 : Fin 3) = 0 ∧ win0_2.index t (2 : Fin 3) = 0)
    ∧ (win0_3.index t (0 : Fin 2) = t.val % 128 ∧ win0_3.index t (1 : Fin 2) = 0)
    ∧ (win0_4.index t (0 : Fin 4) = t.val / 128 ∧ win0_4.index t (1 : Fin 4) = t.val % 128 ∧ win0_4.index t (2 : Fin 4) = 0 ∧ win0_4.index t (3 : Fin 4) = 0)
    ∧ (win0_5.index t (0 : Fin 4) = t.val / 128 ∧ win0_5.index t (1 : Fin 4) = t.val % 128 ∧ win0_5.index t (2 : Fin 4) = 0 ∧ win0_5.index t (3 : Fin 4) = 0)
    ∧ (win0_6.index t (0 : Fin 4) = t.val / 128 ∧ win0_6.index t (1 : Fin 4) = t.val % 128 ∧ win0_6.index t (2 : Fin 4) = 0 ∧ win0_6.index t (3 : Fin 4) = 0) :=
  (by decide +kernel : ∀ t : Fin grid0.N, _)

/-- At the ideal values the narrowed copy of the features the region reads is the features. -/
theorem V_feat (c : Dev nD) : (V m c main_v0 : S8x2048x64.Idx → EReal) = m ((c : Thread nD τ).loc main_arg0) := by
  dsimp only [Gen.V, Gen.hostOps0]; after_results; rfl
theorem V_adj (c : Dev nD) : (V m c main_v1 : S8x2048x2048.Idx → EReal) = m ((c : Thread nD τ).loc main_arg1) := by
  dsimp only [Gen.V, Gen.hostOps0]; after_results; rfl
theorem V_edges (c : Dev nD) : (V m c main_v2 : S8x2048x2048.Idx → EReal) = m ((c : Thread nD τ).loc main_arg2) := by
  dsimp only [Gen.V, Gen.hostOps0]; after_results; rfl

/-- The table block at point t is rows 16·s … 16·s + 15 of the table. -/
theorem table_block (c : Dev nD) (t : Fin cfg0.N) (x : S16x32.Idx) (k : S2048x32.Idx)
    (hk0 : (k 0).val = 16 * (t.val % 128) + (x 0).val) (hk1 : (k 1).val = (x 1).val) :
    (iblk m c 3 t : Vec Ideal S16x32 .i32) x = (m ((c : Thread nD τ).loc main_arg3) : S2048x32.Idx → BitVec 32) k := by
  obtain ⟨-, -, -, ⟨e0, e1⟩, -⟩ := index_facts t
  unfold iblk
  rw [View.read_apply]
  show V m c main_arg3 _ = _
  rw [V_main_arg3]
  congr 1
  funext a
  apply Fin.ext
  match a with
  | ⟨0, _⟩ => show win0_3.index t 0 * 16 + 1 * (x 0).val = (k 0).val; rw [e0, hk0]; omega
  | ⟨1, _⟩ => show win0_3.index t 1 * 32 + 1 * (x 1).val = (k 1).val; rw [e1, hk1]; omega

/-- The feature block at point t is batch b of the features. -/
theorem feat_block (c : Dev nD) (t : Fin cfg0.N) (x : S1x2048x64.Idx) (k : S8x2048x64.Idx)
    (hk0 : (k 0).val = t.val / 128) (hk1 : (k 1).val = (x 1).val) (hk2 : (k 2).val = (x 2).val) :
    (iblk m c 2 t : Vec Ideal S1x2048x64 .bf16) x = (m ((c : Thread nD τ).loc main_arg0) : S8x2048x64.Idx → EReal) k := by
  obtain ⟨-, -, ⟨e0, e1, e2⟩, -⟩ := index_facts t
  unfold iblk
  rw [View.read_apply]
  show V m c main_v0 _ = _
  rw [V_feat]
  congr 1
  funext a
  apply Fin.ext
  have hx : (x 0).val < 1 := (x 0).isLt
  match a with
  | ⟨0, _⟩ => show win0_2.index t 0 * 1 + 1 * (x 0).val = (k 0).val; rw [e0, hk0]; omega
  | ⟨1, _⟩ => show win0_2.index t 1 * 2048 + 1 * (x 1).val = (k 1).val; rw [e1, hk1]; omega
  | ⟨2, _⟩ => show win0_2.index t 2 * 64 + 1 * (x 2).val = (k 2).val; rw [e2, hk2]; omega

/-- The first matrix's block at point t is batch b of it. -/
theorem adj_block (c : Dev nD) (t : Fin cfg0.N) (x : S1x2048x2048.Idx) (k : S8x2048x2048.Idx)
    (hk0 : (k 0).val = t.val / 128) (hk1 : (k 1).val = (x 1).val) (hk2 : (k 2).val = (x 2).val) :
    (iblk m c 0 t : Vec Ideal S1x2048x2048 .bf16) x = (m ((c : Thread nD τ).loc main_arg1) : S8x2048x2048.Idx → EReal) k := by
  obtain ⟨⟨e0, e1, e2⟩, -⟩ := index_facts t
  unfold iblk
  rw [View.read_apply]
  show V m c main_v1 _ = _
  rw [V_adj]
  congr 1
  funext a
  apply Fin.ext
  have hx : (x 0).val < 1 := (x 0).isLt
  match a with
  | ⟨0, _⟩ => show win0_0.index t 0 * 1 + 1 * (x 0).val = (k 0).val; rw [e0, hk0]; omega
  | ⟨1, _⟩ => show win0_0.index t 1 * 2048 + 1 * (x 1).val = (k 1).val; rw [e1, hk1]; omega
  | ⟨2, _⟩ => show win0_0.index t 2 * 2048 + 1 * (x 2).val = (k 2).val; rw [e2, hk2]; omega

/-- The second matrix's block at point t is batch b of it. -/
theorem edges_block (c : Dev nD) (t : Fin cfg0.N) (x : S1x2048x2048.Idx) (k : S8x2048x2048.Idx)
    (hk0 : (k 0).val = t.val / 128) (hk1 : (k 1).val = (x 1).val) (hk2 : (k 2).val = (x 2).val) :
    (iblk m c 1 t : Vec Ideal S1x2048x2048 .bf16) x = (m ((c : Thread nD τ).loc main_arg2) : S8x2048x2048.Idx → EReal) k := by
  obtain ⟨-, ⟨e0, e1, e2⟩, -⟩ := index_facts t
  unfold iblk
  rw [View.read_apply]
  show V m c main_v2 _ = _
  rw [V_edges]
  congr 1
  funext a
  apply Fin.ext
  have hx : (x 0).val < 1 := (x 0).isLt
  match a with
  | ⟨0, _⟩ => show win0_1.index t 0 * 1 + 1 * (x 0).val = (k 0).val; rw [e0, hk0]; omega
  | ⟨1, _⟩ => show win0_1.index t 1 * 2048 + 1 * (x 1).val = (k 1).val; rw [e1, hk1]; omega
  | ⟨2, _⟩ => show win0_1.index t 2 * 2048 + 1 * (x 2).val = (k 2).val; rw [e2, hk2]; omega

theorem point_lt (t : Fin cfg0.N) : t.val < 1024 := by
  exact Nat.lt_of_lt_of_eq t.isLt N_0

/-- Entry (0, v, j, f) of block t of the feature windows is entry (b, 16·s + v, j, f) of the array. -/
theorem feat_out_emb (t : Fin cfg0.N) (y : S1x16x32x64.Idx) :
    (((cfg0.win 4).blk t).view.emb y : S8x2048x32x64.Idx)
      = ix4 (⟨t.val / 128, by have := point_lt t; omega⟩ : Fin 8)
          (⟨16 * (t.val % 128) + (y 1).val, by have h1 : (y 1).val < 16 := (y 1).isLt; have := point_lt t; omega⟩ : Fin 2048)
          (⟨(y 2).val, (y 2).isLt⟩ : Fin 32) (⟨(y 3).val, (y 3).isLt⟩ : Fin 64) := by
  obtain ⟨-, -, -, -, ⟨e0, e1, e2, e3⟩, -⟩ := index_facts t
  have h0 : (y 0).val < 1 := (y 0).isLt
  funext a
  apply Fin.ext
  match a with
  | ⟨0, _⟩ => show win0_4.index t 0 * 1 + 1 * (y 0).val = t.val / 128; rw [e0]; omega
  | ⟨1, _⟩ => show win0_4.index t 1 * 16 + 1 * (y 1).val = 16 * (t.val % 128) + (y 1).val; rw [e1]; omega
  | ⟨2, _⟩ => show win0_4.index t 2 * 32 + 1 * (y 2).val = (y 2).val; rw [e2]; omega
  | ⟨3, _⟩ => show win0_4.index t 3 * 64 + 1 * (y 3).val = (y 3).val; rw [e3]; omega

/-- Every word of the table block at point t is a vertex number when every word of the table is. -/
theorem table_block_isVertex (hv : ∀ (c : Dev nD) (i : S2048x32.Idx), IsVertex ((m ((c : Thread nD τ).loc main_arg3) : S2048x32.Idx → BitVec 32) i))
    (c : Dev nD) (t : Fin cfg0.N) (i : S16x32.Idx) : IsVertex ((iblk m c 3 t : Vec Ideal S16x32 .i32) i) := by
  rw [table_block m c t i (ix2 (⟨16 * (t.val % 128) + (i 0).val, by have h0 : (i 0).val < 16 := (i 0).isLt; have := point_lt t; omega⟩ : Fin 2048)
    (⟨(i 1).val, (i 1).isLt⟩ : Fin 32)) rfl rfl]
  exact hv c _

/-- What point t writes back to the feature windows is block t of the feature windows of the arguments. -/
theorem feat_flushed (hv : ∀ (c : Dev nD) (i : S2048x32.Idx), IsVertex ((m ((c : Thread nD τ).loc main_arg3) : S2048x32.Idx → BitVec 32) i))
    (c : Dev nD) (t : Fin cfg0.N) :
    (dats m 0 c).flushed 4 t = ((cfg0.win 4).blk t).view.read (Elt Ideal)
      (featWindows (m ((c : Thread nD τ).loc main_arg0)) (m ((c : Thread nD τ).loc main_arg3))) := by
  rw [flushed4]
  unfold out0_4
  rw [View.canon_unit_zero hz4]
  simp only [View.ld_unit_zero (S := S16x32) hz2, View.ld_unit_zero (S := S1x2048x64) hz3]
  refine funext fun (y : S1x16x32x64.Idx) => ?_
  obtain ⟨z, tt, j, f, rfl⟩ : ∃ (z : Fin 1) (tt : Fin 16) (j : Fin 32) (f : Fin 64), y = ix4 z tt j f :=
    ⟨y 0, y 1, y 2, y 3, eq_ix4 y⟩
  show k0_pay5 (iblk m c 3 t) (iblk m c 2 t) (ix4 z tt j f)
    = featWindows (m ((c : Thread nD τ).loc main_arg0)) (m ((c : Thread nD τ).loc main_arg3)) (((cfg0.win 4).blk t).view.emb (ix4 z tt j f))
  refine (Payload.feat_payload (iblk m c 3 t) (iblk m c 2 t) (table_block_isVertex m hv c t) z tt j f).trans ?_
  rw [feat_out_emb t (ix4 z tt j f),
    table_block m c t (ix2 tt j) (ix2 (⟨16 * (t.val % 128) + tt.val, by have := tt.isLt; have := point_lt t; omega⟩ : Fin 2048) j) rfl rfl]
  exact feat_block m c t _ (ix3 (⟨t.val / 128, by have := point_lt t; omega⟩ : Fin 8) _ f) rfl rfl rfl

/-- An index of the feature windows is in point t's block iff each coordinate is in the block's range on its axis. -/
theorem feat_mem_blk (t : Fin cfg0.N) (i : S8x2048x32x64.Idx) :
    i ∈ ((cfg0.win 4).blk t).view.set ↔ ∀ a : Fin 4, win0_4.index t a * S1x16x32x64.size a ≤ (i a).val
      ∧ (i a).val < win0_4.index t a * S1x16x32x64.size a + S1x16x32x64.size a := by
  show i ∈ ((View.whole main_v3_0).slice (win0_4.rect t)).set ↔ _
  rw [View.set_slice_whole, Rect.mem_set_unit]
  exact Iff.rfl

/-- Entry (b, n, j, f) of the feature windows is written by point 128·b + n / 16. -/
theorem feat_cover (i : S8x2048x32x64.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 32 := (i 2).isLt
  have h3 : (i 3).val < 64 := (i 3).isLt
  obtain ⟨t, tv⟩ : ∃ t : Fin cfg0.N, t.val = 128 * (i 0).val + (i 1).val / 16 :=
    ⟨⟨128 * (i 0).val + (i 1).val / 16, Nat.lt_of_lt_of_eq (by omega) N_0.symm⟩, rfl⟩
  refine ⟨t, flush0_4 t, ?_⟩
  rw [feat_mem_blk]
  obtain ⟨-, -, -, -, ⟨e0, e1, e2, e3⟩, -⟩ := index_facts t
  intro a
  match a with
  | ⟨0, _⟩ => show win0_4.index t 0 * 1 ≤ (i 0).val ∧ (i 0).val < win0_4.index t 0 * 1 + 1; rw [e0, tv]; omega
  | ⟨1, _⟩ => show win0_4.index t 1 * 16 ≤ (i 1).val ∧ (i 1).val < win0_4.index t 1 * 16 + 16; rw [e1, tv]; omega
  | ⟨2, _⟩ => show win0_4.index t 2 * 32 ≤ (i 2).val ∧ (i 2).val < win0_4.index t 2 * 32 + 32; rw [e2]; omega
  | ⟨3, _⟩ => show win0_4.index t 3 * 64 ≤ (i 3).val ∧ (i 3).val < win0_4.index t 3 * 64 + 64; rw [e3]; omega

/-- The feature windows after the run are the feature windows of the arguments. -/
theorem feat_final (hv : ∀ (c : Dev nD) (i : S2048x32.Idx), IsVertex ((m ((c : Thread nD τ).loc main_arg3) : S2048x32.Idx → BitVec 32) i))
    (c : Dev nD) : (dats m 0 c).arrAt 4 cfg0.N
      = featWindows (m ((c : Thread nD τ).loc main_arg0)) (m ((c : Thread nD τ).loc main_arg3)) :=
  (dats m 0 c).arrAt_eq_of_cover 4 _ (fun t _ => feat_flushed m hv c t) feat_cover

/-- Entry (0, v, j, k) of block t of the first matrix's windows is entry (b, 16·s + v, j, k) of the array. -/
theorem adj_out_emb (t : Fin cfg0.N) (y : S1x16x32x32.Idx) :
    (((cfg0.win 5).blk t).view.emb y : S8x2048x32x32.Idx)
      = ix4 (⟨t.val / 128, by have := point_lt t; omega⟩ : Fin 8)
          (⟨16 * (t.val % 128) + (y 1).val, by have h1 : (y 1).val < 16 := (y 1).isLt; have := point_lt t; omega⟩ : Fin 2048)
          (⟨(y 2).val, (y 2).isLt⟩ : Fin 32) (⟨(y 3).val, (y 3).isLt⟩ : Fin 32) := by
  obtain ⟨-, -, -, -, -, ⟨e0, e1, e2, e3⟩, -⟩ := index_facts t
  have h0 : (y 0).val < 1 := (y 0).isLt
  funext a
  apply Fin.ext
  match a with
  | ⟨0, _⟩ => show win0_5.index t 0 * 1 + 1 * (y 0).val = t.val / 128; rw [e0]; omega
  | ⟨1, _⟩ => show win0_5.index t 1 * 16 + 1 * (y 1).val = 16 * (t.val % 128) + (y 1).val; rw [e1]; omega
  | ⟨2, _⟩ => show win0_5.index t 2 * 32 + 1 * (y 2).val = (y 2).val; rw [e2]; omega
  | ⟨3, _⟩ => show win0_5.index t 3 * 32 + 1 * (y 3).val = (y 3).val; rw [e3]; omega

/-- What point t writes back to the first matrix's windows is block t of the pair windows of the first matrix. -/
theorem adj_flushed (hv : ∀ (c : Dev nD) (i : S2048x32.Idx), IsVertex ((m ((c : Thread nD τ).loc main_arg3) : S2048x32.Idx → BitVec 32) i))
    (c : Dev nD) (t : Fin cfg0.N) :
    (dats m 0 c).flushed 5 t = ((cfg0.win 5).blk t).view.read (Elt Ideal)
      (pairWindows (m ((c : Thread nD τ).loc main_arg1)) (m ((c : Thread nD τ).loc main_arg3))) := by
  rw [flushed5]
  unfold out0_5
  rw [View.canon_unit_zero hz4]
  simp only [View.ld_unit_zero (S := S16x32) hz2, View.ld_unit_zero (S := S1x2048x2048) hz3]
  refine funext fun (y : S1x16x32x32.Idx) => ?_
  obtain ⟨z, tt, j, k, rfl⟩ : ∃ (z : Fin 1) (tt : Fin 16) (j : Fin 32) (k : Fin 32), y = ix4 z tt j k :=
    ⟨y 0, y 1, y 2, y 3, eq_ix4 y⟩
  show k0_pay6 (iblk m c 3 t) (iblk m c 0 t) (ix4 z tt j k)
    = pairWindows (m ((c : Thread nD τ).loc main_arg1)) (m ((c : Thread nD τ).loc main_arg3)) (((cfg0.win 5).blk t).view.emb (ix4 z tt j k))
  refine (Payload.adj_payload (iblk m c 3 t) (iblk m c 0 t) (table_block_isVertex m hv c t) z tt j k).trans ?_
  rw [adj_out_emb t (ix4 z tt j k),
    table_block m c t (ix2 tt j) (ix2 (⟨16 * (t.val % 128) + tt.val, by have := tt.isLt; have := point_lt t; omega⟩ : Fin 2048) j) rfl rfl,
    table_block m c t (ix2 tt k) (ix2 (⟨16 * (t.val % 128) + tt.val, by have := tt.isLt; have := point_lt t; omega⟩ : Fin 2048) k) rfl rfl]
  exact adj_block m c t _ (ix3 (⟨t.val / 128, by have := point_lt t; omega⟩ : Fin 8) _ _) rfl rfl rfl

/-- An index of the first matrix's windows is in point t's block iff each coordinate is in the block's range on its axis. -/
theorem adj_mem_blk (t : Fin cfg0.N) (i : S8x2048x32x32.Idx) :
    i ∈ ((cfg0.win 5).blk t).view.set ↔ ∀ a : Fin 4, win0_5.index t a * S1x16x32x32.size a ≤ (i a).val
      ∧ (i a).val < win0_5.index t a * S1x16x32x32.size a + S1x16x32x32.size a := by
  show i ∈ ((View.whole main_v3_1).slice (win0_5.rect t)).set ↔ _
  rw [View.set_slice_whole, Rect.mem_set_unit]
  exact Iff.rfl

/-- Entry (b, n, j, k) of the first matrix's windows is written by point 128·b + n / 16. -/
theorem adj_cover (i : S8x2048x32x32.Idx) :
    ∃ t : Fin cfg0.N, (cfg0.win 5).flush t = true ∧ i ∈ ((cfg0.win 5).blk t).view.set := by
  have h0 : (i 0).val < 8 := (i 0).isLt
  have h1 : (i 1).val < 2048 := (i 1).isLt
  have h2 : (i 2).val < 32 := (i 2).isLt
  have h3 : (i 3).val < 32 := (i 3).isLt
  obtain ⟨t, tv⟩ : ∃ t : Fin cfg0.N, t.val = 128 * (i 0).val + (i 1).val / 16 :=
    ⟨⟨128 * (i 0).val + (i 1).val / 16, Nat.lt_of_lt_of_eq (by omega) N_0.symm⟩, rfl⟩
  refine ⟨t, flush0_5 t, ?_⟩
  rw [adj_mem_blk]
  obtain ⟨-, -, -, -, -, ⟨e0, e1, e2, e3⟩, -⟩ := index_facts t
  intro a
  match a with
  | ⟨0, _⟩ => show win0_5.index t 0 * 1 ≤ (i 0).val ∧ (i 0).val < win0_5.index t 0 * 1 + 1; rw [e0, tv]; omega
  | ⟨1, _⟩ => show win0_5.index t 1 * 16 ≤ (i 1).val ∧ (i 1).val < win0_5.index t 1 * 16 + 16; rw [e1, tv]; omega
  | ⟨2, _⟩ => show win0_5.index t 2 * 32 ≤ (i 2).val ∧ (i 2).val < win0_5.index t 2 * 32 + 32; rw [e2]; omega
  | ⟨3, _⟩ => show win0_5.index t 3 * 32 ≤ (i 3).val ∧ (i 3).val < win0_5.index t 3 * 32 + 32; rw [e3]; omega

/-- The first matrix's windows after the run are the pair windows of the first matrix. -/
theorem adj_final (hv : ∀ (c : Dev nD) (i : S2048x32.Idx), IsVertex ((m ((c : Thread nD τ).loc main_arg3) : S2048x32.Idx → BitVec 32) i))
    (c : Dev nD) : (dats m 0 c).arrAt 5 cfg0.N
      = pairWindows (m ((c : Thread nD τ).loc main_arg1)) (m ((c : Thread nD τ).loc main_arg3)) :=
  (dats m 0 c).arrAt_eq_of_cover 5 _ (fun t _ => adj_flushed m hv c t) adj_cover

/-- Entry (0, v, j, k) of block t of the second matrix's windows is entry (b, 16·s + v, j, k) of the array. -/
theorem edges_out_emb (t : Fin cfg0.N) (y : S1x16x32x32.Idx) :
    (((cfg0.win 6).blk t).view.emb y : S8x2048x32x32.Idx)
      = ix4 (⟨t.val / 128, by have := point_lt t; omega⟩ : Fin 8)
          (⟨16 * (t.val % 128) + (y 1).val, by have h1 : (y 1).val < 16 := (y 1).isLt; have := point_lt t; omega⟩ : Fin 2048)
          (⟨(y 2).val, (y 2).isLt⟩ : Fin 32) (⟨(y 3).val, (y 3).isLt⟩ : Fin 32) := by
  obtain ⟨-, -, -, -, -, -, ⟨e0, e1, e2, e3⟩⟩ := index_facts t
  have h0 : (y 0).val < 1 := (y 0).isLt
  funext a
  apply Fin.ext
  match a with
  | ⟨0, _⟩ => show win0_6.index t 0 * 1 + 1 * (y 0).val = t.val / 128; rw [e0]; omega
  | ⟨1, _⟩ => show win0_6.index t 1 * 16 + 1 * (y 1).val = 16 * (t.val % 128) + (y 1).val; rw [e1]; omega
  | ⟨2, _⟩ => show win0_6.index t 2 * 32 + 1 * (y 2).val = (y 2).val; rw [e2]; omega
  | ⟨3, _⟩ => show win0_6.index t 3 * 32 + 1 * (y 3).val = (y 3).val; rw [e3]; omega

/-- What point t writes back to the second matrix's windows is block t of the pair windows of the second matrix. -/
theorem edges_flushed (hv : ∀ (c : Dev nD) (i : S2048x32.Idx), IsVertex ((m ((c : Thread nD τ).loc main_arg3) : S2048x32.Idx → BitVec 32) i))
    (c : Dev nD) (t : Fin cfg0.N) :
    (dats m 0 c).flushed 6 t = ((cfg0.win 6).blk t).view.read (Elt Ideal)
      (pairWindows (m ((c : Thread nD τ).loc main_arg2)) (m ((c : Thread nD τ).loc main_arg3))) := by
  rw [flushed6]
  unfold out0_6
  rw [View.canon_unit_zero hz4]
  simp only [View.ld_unit_zero (S := S16x32) hz2, View.ld_unit_zero (S := S1x2048x2048) hz3]
  refine funext fun (y : S1x16x32x32.Idx) => ?_
  obtain ⟨z, tt, j, k, rfl⟩ : ∃ (z : Fin 1) (tt : Fin 16) (j : Fin 32) (k : Fin 32), y = ix4 z tt j k :=
    ⟨y 0, y 1, y 2, y 3, eq_ix4 y⟩
  show k0_pay1 (k0_pay2 (iblk m c 3 t)) (k0_pay3 (iblk m c 3 t)) (k0_pay4 (iblk m c 1 t)) (ix4 z tt j k)
    = pairWindows (m ((c : Thread nD τ).loc main_arg2)) (m ((c : Thread nD τ).loc main_arg3)) (((cfg0.win 6).blk t).view.emb (ix4 z tt j k))
  refine (Payload.edges_payload (iblk m c 3 t) (iblk m c 1 t) (table_block_isVertex m hv c t) z tt j k).trans ?_
  rw [edges_out_emb t (ix4 z tt j k),
    table_block m c t (ix2 tt j) (ix2 (⟨16 * (t.val % 128) + tt.val, by have := tt.isLt; have := point_lt t; omega⟩ : Fin 2048) j) rfl rfl,
    table_block m c t (ix2 tt k) (ix2 (⟨16 * (t.val % 128) + tt.val, by have := tt.isLt; have := point_lt t; omega⟩ : Fin 2048) k) rfl rfl]
  exact edges_block m c t _ (ix3 (⟨t.val / 128, by have := point_lt t; omega⟩ : Fin 8) _ _) rfl rfl rfl

/-- An index of the second matrix's windows is in point t's block iff each coordinate is in the block's range on its axis. -/
theorem edges_mem_blk (t : Fin cfg0.N) (i : S8x2048x32x32.Idx) :
    i ∈ ((cfg0.win 6).blk t).view.set ↔ ∀ a : Fin 4, win0_6.index t a * S1x16x32x32.size a ≤ (i a).val
      ∧ (i a).val < win0_6.index t a * S1x16x32x32.size a + S1x16x32x32.size a := by
  show i ∈ ((View.whole main_v3_2).slice (win0_6.rect t)).set ↔ _
  rw [View.set_slice_whole, Rect.mem_set_unit]
  exact Iff.rfl

/-- Entry (b, n, j, k) of the second matrix's windows is written by point 128·b + n / 16. -/
theorem edges_cover (i : S8x2048x32x32.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 32 := (i 2).isLt
  have h3 : (i 3).val < 32 := (i 3).isLt
  obtain ⟨t, tv⟩ : ∃ t : Fin cfg0.N, t.val = 128 * (i 0).val + (i 1).val / 16 :=
    ⟨⟨128 * (i 0).val + (i 1).val / 16, Nat.lt_of_lt_of_eq (by omega) N_0.symm⟩, rfl⟩
  refine ⟨t, flush0_6 t, ?_⟩
  rw [edges_mem_blk]
  obtain ⟨-, -, -, -, -, -, ⟨e0, e1, e2, e3⟩⟩ := index_facts t
  intro a
  match a with
  | ⟨0, _⟩ => show win0_6.index t 0 * 1 ≤ (i 0).val ∧ (i 0).val < win0_6.index t 0 * 1 + 1; rw [e0, tv]; omega
  | ⟨1, _⟩ => show win0_6.index t 1 * 16 ≤ (i 1).val ∧ (i 1).val < win0_6.index t 1 * 16 + 16; rw [e1, tv]; omega
  | ⟨2, _⟩ => show win0_6.index t 2 * 32 ≤ (i 2).val ∧ (i 2).val < win0_6.index t 2 * 32 + 32; rw [e2]; omega
  | ⟨3, _⟩ => show win0_6.index t 3 * 32 ≤ (i 3).val ∧ (i 3).val < win0_6.index t 3 * 32 + 32; rw [e3]; omega

/-- The second matrix's windows after the run are the pair windows of the second matrix. -/
theorem edges_final (hv : ∀ (c : Dev nD) (i : S2048x32.Idx), IsVertex ((m ((c : Thread nD τ).loc main_arg3) : S2048x32.Idx → BitVec 32) i))
    (c : Dev nD) : (dats m 0 c).arrAt 6 cfg0.N
      = pairWindows (m ((c : Thread nD τ).loc main_arg2)) (m ((c : Thread nD τ).loc main_arg3)) :=
  (dats m 0 c).arrAt_eq_of_cover 6 _ (fun t _ => edges_flushed m hv c t) edges_cover

/-- The run, read: each output array is the window function of the arguments, the arguments unchanged. -/
theorem run (hv : ∀ (c : Dev nD) (i : S2048x32.Idx), IsVertex ((m ((c : Thread nD τ).loc main_arg3) : S2048x32.Idx → BitVec 32) i)) :
    θ_run defs (onTc (τ := τ) (main (F := Ideal))) ⟨m, fun _ => 0, ρ⟩ fun r => ∀ c : Dev nD,
      r.2.mem ((c : Thread nD τ).loc main_v3_0) = featWindows (m ((c : Thread nD τ).loc main_arg0)) (m ((c : Thread nD τ).loc main_arg3))
      ∧ r.2.mem ((c : Thread nD τ).loc main_v3_1) = pairWindows (m ((c : Thread nD τ).loc main_arg1)) (m ((c : Thread nD τ).loc main_arg3))
      ∧ r.2.mem ((c : Thread nD τ).loc main_v3_2) = pairWindows (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (feat_final m hv c), (h c).2.1.trans (adj_final m hv c),
      (h c).2.2.1.trans (edges_final m hv c), (h c).2.2.2⟩)
    (Cert.KernelIdeal.Value.run_blocks m ρ)

end Cert.KernelIdeal.Windows

end
-- ==== Proof.RefWindows.lean ====
/-
  The reference's three gathers, read at an index.

  jnp's indexing first adds 2048 to a negative table word and then gathers with the start index clamped
  into the table; on vertex numbers (0 ≤ w < 2048) the first step changes nothing and the clamp is the
  word itself, so each result is the window function of the arguments.
-/
import proofs.«401435_j42502996361386_1_alg».proof.Proof.Spec
import proofs.«401435_j42502996361386_1_alg».proof.Proof.Gen.ReferenceIdeal.Read
import Idealize.ShloMosaic.Lib.ValueIdx
import Idealize.ShloMosaic.Lib.Pipeline.Value
import Idealize.ShloMosaic.Lib.Affine

noncomputable section

namespace Cert.ReferenceIdeal.Windows

open Cert.ReferenceIdeal Cert.ReferenceIdeal.Read Cert.Neighbourhoods Idealize.ShloMosaic Idealize.ShloMosaic.ValueIdx

variable {F : FTy → Type} [FloatOps F]

/-- On a vertex number the negative-index fix (add 2048 to a negative word) changes nothing. -/
theorem fix_of_isVertex {w : BitVec 32} (h : IsVertex w) :
    Scalar.select (IntOp.cmpi .slt w 0#32) (IntOp.addi w 2048#32) w = w := by
  have hc : ¬ IntOp.cmpi .slt w 0#32 = 1#1 := by
    rw [IntOp.cmpi_slt]
    have h0 : (0#32 : BitVec 32).toInt = 0 := by decide
    rw [h0]; exact Int.not_lt.2 h.1
  rw [eq_zero_of_ne_one hc, select_zero]

/-- The feature gather read at an index: result entry (b, n, j, f) is the operand at (b, v, f), v the vertex the start
    index at (n, j, 0) names (the word read signed and clamped into 0 … 2047).  Axis 1 is the one the start index
    names (it is collapsed: no offset there); axes 0 and 2 start at 0 and carry the result's coordinates 0 and 3. -/
theorem featGather_apply {α : Type} (x : S8x2048x64.Idx → α) (idx : IVec S2048x32x1 32) (i : S8x2048x32x64.Idx) :
    Host.gather gather_S8x2048x64_S2048x32x1_S8x2048x32x64_03_1_n_n_1_2_8164 x idx i
      = x (ix3 (i 0) (node (idx (ix3 (i 1) (i 2) 0))) (i 3)) := by
  unfold Host.gather
  congr 1
  funext a
  refine Fin.ext ?_
  match a with
  | ⟨0, _⟩ =>
    show GatherDims.start _ i idx 0 + GatherDims.batchCoord _ i 0 + GatherDims.offCoord _ i 0 = (i 0).val
    rw [GatherDims.batchCoord_eq_zero _ _ _ List.not_mem_nil]
    have hs : GatherDims.start gather_S8x2048x64_S2048x32x1_S8x2048x32x64_03_1_n_n_1_2_8164 i idx 0 = 0 := by
      unfold GatherDims.start
      rw [dif_neg (show (0 : Fin 3) ∉ gather_S8x2048x64_S2048x32x1_S8x2048x32x64_03_1_n_n_1_2_8164.startIndexMap from by decide)]
    have ho : GatherDims.offCoord gather_S8x2048x64_S2048x32x1_S8x2048x32x64_03_1_n_n_1_2_8164 i 0 = (i 0).val := by
      unfold GatherDims.offCoord
      rw [dif_pos (show (0 : Fin 3) ∈ GatherDims.sKept gather_S8x2048x64_S2048x32x1_S8x2048x32x64_03_1_n_n_1_2_8164 from by decide)]
      rfl
    rw [hs, ho]; omega
  | ⟨1, _⟩ =>
    show GatherDims.start _ i idx 1 + GatherDims.batchCoord _ i 1 + GatherDims.offCoord _ i 1
      = min (idx (ix3 (i 1) (i 2) 0)).toInt.toNat 2047
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S8x2048x64_S2048x32x1_S8x2048x32x64_03_1_n_n_1_2_8164.startIndexMap
      from List.mem_singleton.mpr rfl)]
    have hsi : GatherDims.siIdx gather_S8x2048x64_S2048x32x1_S8x2048x32x64_03_1_n_n_1_2_8164 i
        ⟨List.idxOf (1 : Fin 3) gather_S8x2048x64_S2048x32x1_S8x2048x32x64_03_1_n_n_1_2_8164.startIndexMap,
          List.idxOf_lt_length_iff.2 (List.mem_singleton.mpr rfl)⟩ = ix3 (i 1) (i 2) 0 := by
      funext b; refine Fin.ext ?_
      match b with
      | ⟨0, _⟩ => rfl
      | ⟨1, _⟩ => rfl
      | ⟨2, _⟩ => rfl
    rw [hsi]
    rfl
  | ⟨2, _⟩ =>
    show GatherDims.start _ i idx 2 + GatherDims.batchCoord _ i 2 + GatherDims.offCoord _ i 2 = (i 3).val
    rw [GatherDims.batchCoord_eq_zero _ _ _ List.not_mem_nil]
    have hs : GatherDims.start gather_S8x2048x64_S2048x32x1_S8x2048x32x64_03_1_n_n_1_2_8164 i idx 2 = 0 := by
      unfold GatherDims.start
      rw [dif_neg (show (2 : Fin 3) ∉ gather_S8x2048x64_S2048x32x1_S8x2048x32x64_03_1_n_n_1_2_8164.startIndexMap from by decide)]
    have ho : GatherDims.offCoord gather_S8x2048x64_S2048x32x1_S8x2048x32x64_03_1_n_n_1_2_8164 i 2 = (i 3).val := by
      unfold GatherDims.offCoord
      rw [dif_pos (show (2 : Fin 3) ∈ GatherDims.sKept gather_S8x2048x64_S2048x32x1_S8x2048x32x64_03_1_n_n_1_2_8164 from by decide)]
      rfl
    rw [hs, ho]; omega

/-- The matrix gather read at an index: result entry (b, n, p, q) is the operand at (b, u, v), u and v the vertices that
    components 0 and 1 of the start index at (n, p, q) name (each word read signed and clamped into 0 … 2047).  Axes 1
    and 2 are the ones the start index names (both collapsed: no offset); axis 0 starts at 0 and carries the
    result's coordinate 0. -/
theorem pairGather_apply {α : Type} (x : S8x2048x2048.Idx → α) (idx : IVec S2048x32x32x2 32) (i : S8x2048x32x32.Idx) :
    Host.gather gather_S8x2048x2048_S2048x32x32x2_S8x2048x32x32_0_12_n_n_12_3_811 x idx i
      = x (ix3 (i 0) (node (idx (ix4 (i 1) (i 2) (i 3) 0))) (node (idx (ix4 (i 1) (i 2) (i 3) 1)))) := by
  unfold Host.gather
  congr 1
  funext a
  refine Fin.ext ?_
  match a with
  | ⟨0, _⟩ =>
    show GatherDims.start _ i idx 0 + GatherDims.batchCoord _ i 0 + GatherDims.offCoord _ i 0 = (i 0).val
    rw [GatherDims.batchCoord_eq_zero _ _ _ List.not_mem_nil]
    have hs : GatherDims.start gather_S8x2048x2048_S2048x32x32x2_S8x2048x32x32_0_12_n_n_12_3_811 i idx 0 = 0 := by
      unfold GatherDims.start
      rw [dif_neg (show (0 : Fin 3) ∉ gather_S8x2048x2048_S2048x32x32x2_S8x2048x32x32_0_12_n_n_12_3_811.startIndexMap from by decide)]
    have ho : GatherDims.offCoord gather_S8x2048x2048_S2048x32x32x2_S8x2048x32x32_0_12_n_n_12_3_811 i 0 = (i 0).val := by
      unfold GatherDims.offCoord
      rw [dif_pos (show (0 : Fin 3) ∈ GatherDims.sKept gather_S8x2048x2048_S2048x32x32x2_S8x2048x32x32_0_12_n_n_12_3_811 from by decide)]
      rfl
    rw [hs, ho]; omega
  | ⟨1, _⟩ =>
    show GatherDims.start _ i idx 1 + GatherDims.batchCoord _ i 1 + GatherDims.offCoord _ i 1
      = min (idx (ix4 (i 1) (i 2) (i 3) 0)).toInt.toNat 2047
    have hm : (1 : Fin 3) ∈ gather_S8x2048x2048_S2048x32x32x2_S8x2048x32x32_0_12_n_n_12_3_811.startIndexMap := by decide
    have hc : (1 : Fin 3) ∈ gather_S8x2048x2048_S2048x32x32x2_S8x2048x32x32_0_12_n_n_12_3_811.collapsedSliceDims := by decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : GatherDims.siIdx gather_S8x2048x2048_S2048x32x32x2_S8x2048x32x32_0_12_n_n_12_3_811 i
        ⟨List.idxOf (1 : Fin 3) gather_S8x2048x2048_S2048x32x32x2_S8x2048x32x32_0_12_n_n_12_3_811.startIndexMap,
          List.idxOf_lt_length_iff.2 hm⟩ = ix4 (i 1) (i 2) (i 3) 0 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show GatherDims.start _ i idx 2 + GatherDims.batchCoord _ i 2 + GatherDims.offCoord _ i 2
      = min (idx (ix4 (i 1) (i 2) (i 3) 1)).toInt.toNat 2047
    have hm : (2 : Fin 3) ∈ gather_S8x2048x2048_S2048x32x32x2_S8x2048x32x32_0_12_n_n_12_3_811.startIndexMap := by decide
    have hc : (2 : Fin 3) ∈ gather_S8x2048x2048_S2048x32x32x2_S8x2048x32x32_0_12_n_n_12_3_811.collapsedSliceDims := by decide
    rw [GatherDims.batchCoord_eq_zero _ _ _ List.not_mem_nil,
      GatherDims.offCoord_eq_zero _ _ _ (fun h => ((GatherDims.mem_sKept _ _).mp h).1 hc)]
    simp only [Nat.add_zero]
    unfold GatherDims.start
    rw [dif_pos hm]
    have hsi : GatherDims.siIdx gather_S8x2048x2048_S2048x32x32x2_S8x2048x32x32_0_12_n_n_12_3_811 i
        ⟨List.idxOf (2 : Fin 3) gather_S8x2048x2048_S2048x32x32x2_S8x2048x32x32_0_12_n_n_12_3_811.startIndexMap,
          List.idxOf_lt_length_iff.2 hm⟩ = ix4 (i 1) (i 2) (i 3) 1 := by
      funext b; refine Fin.ext ?_
      match b with
      | ⟨0, _⟩ => rfl
      | ⟨1, _⟩ => rfl
      | ⟨2, _⟩ => rfl
      | ⟨3, _⟩ => rfl
    rw [hsi]
    rfl

/-- Component 0 of a joined index vector is the first piece's entry. -/
theorem cat_zero {α : Type} (a b : S2048x32x32x1.Idx → α) (n : Fin 2048) (p q : Fin 32) :
    concatenate S2048x32x32x2 3 [⟨S2048x32x32x1, a⟩, ⟨S2048x32x32x1, b⟩]
        Facts₀.concatenates_S2048x32x32x1_S2048x32x32x1_S2048x32x32x2_d3 (ix4 n p q (0 : Fin 2))
      = a (ix4 n p q (0 : Fin 1)) := by
  refine concatenate_pair_apply_left (t := S2048x32x32x2) (s₁ := S2048x32x32x1) (s₂ := S2048x32x32x1) (3 : Fin 4) a b _
    (ix4 n p q (0 : Fin 2)) rfl (ix4 n p q (0 : Fin 1)) ?_
  intro c
  match c with
  | ⟨0, _⟩ => rfl
  | ⟨1, _⟩ => rfl
  | ⟨2, _⟩ => rfl
  | ⟨3, _⟩ => rfl

/-- Component 1 of a joined index vector is the second piece's entry. -/
theorem cat_one {α : Type} (a b : S2048x32x32x1.Idx → α) (n : Fin 2048) (p q : Fin 32) :
    concatenate S2048x32x32x2 3 [⟨S2048x32x32x1, a⟩, ⟨S2048x32x32x1, b⟩]
        Facts₀.concatenates_S2048x32x32x1_S2048x32x32x1_S2048x32x32x2_d3 (ix4 n p q (1 : Fin 2))
      = b (ix4 n p q (0 : Fin 1)) := by
  refine concatenate_pair_apply_right (t := S2048x32x32x2) (s₁ := S2048x32x32x1) (s₂ := S2048x32x32x1) (3 : Fin 4) a b _
    (ix4 n p q (1 : Fin 2)) rfl rfl (ix4 n p q (0 : Fin 1)) ?_ ?_
  · intro c hc
    match c, hc with
    | ⟨0, _⟩, _ => rfl
    | ⟨1, _⟩, _ => rfl
    | ⟨2, _⟩, _ => rfl
    | ⟨3, _⟩, hc => exact absurd rfl hc
  · rfl

/-- The first matrix gather's start indices, component 0 at (n, p, q): the table word (n, p), broadcast along q and left
    alone by the negative-index step since it is a vertex number. -/
theorem idx23_zero (x3 : (⟨S2048x32, .i32⟩ : BufTy).Contents (Elt F)) (hv : ∀ i, IsVertex (x3 i)) (n : Fin 2048) (p q : Fin 32) :
    val_main_v23 (F := F) x3 (ix4 n p q 0) = x3 (ix2 n p) := by
  have hi : idx_main_v7 (idx_main_v19 (idx_main_v21 (ix4 n p q (0 : Fin 1)))) = ix2 n p := by
    funext a; match a with | ⟨0, _⟩ => rfl | ⟨1, _⟩ => rfl
  unfold val_main_v23
  rw [cat_zero, val_main_v21_apply, val_main_v19_apply, val_main_v13_apply, val_main_v10_apply, val_main_v12_apply,
    val_main_v7_apply, val_main_v9_apply, val_main_v11_apply, val_main_c_1_apply, val_main_c_2_apply, hi]
  exact fix_of_isVertex (hv _)

/-- The first matrix gather's start indices, component 1 at (n, p, q): the table word (n, q), broadcast along p and left
    alone by the negative-index step since it is a vertex number. -/
theorem idx23_one (x3 : (⟨S2048x32, .i32⟩ : BufTy).Contents (Elt F)) (hv : ∀ i, IsVertex (x3 i)) (n : Fin 2048) (p q : Fin 32) :
    val_main_v23 (F := F) x3 (ix4 n p q 1) = x3 (ix2 n q) := by
  have hi : idx_main_v8 (idx_main_v20 (idx_main_v22 (ix4 n p q (0 : Fin 1)))) = ix2 n q := by
    funext a; match a with | ⟨0, _⟩ => rfl | ⟨1, _⟩ => rfl
  unfold val_main_v23
  rw [cat_one, val_main_v22_apply, val_main_v20_apply, val_main_v18_apply, val_main_v15_apply, val_main_v17_apply,
    val_main_v8_apply, val_main_v14_apply, val_main_v16_apply, val_main_c_3_apply, val_main_c_4_apply, hi]
  exact fix_of_isVertex (hv _)

/-- The second matrix gather's start indices, component 0: the table word (n, p) again. -/
theorem idx39_zero (x3 : (⟨S2048x32, .i32⟩ : BufTy).Contents (Elt F)) (hv : ∀ i, IsVertex (x3 i)) (n : Fin 2048) (p q : Fin 32) :
    val_main_v39 (F := F) x3 (ix4 n p q 0) = x3 (ix2 n p) := by
  have hi : idx_main_v7 (idx_main_v35 (idx_main_v37 (ix4 n p q (0 : Fin 1)))) = ix2 n p := by
    funext a; match a with | ⟨0, _⟩ => rfl | ⟨1, _⟩ => rfl
  unfold val_main_v39
  rw [cat_zero, val_main_v37_apply, val_main_v35_apply, val_main_v29_apply, val_main_v26_apply, val_main_v28_apply,
    val_main_v7_apply, val_main_v25_apply, val_main_v27_apply, val_main_c_5_apply, val_main_c_6_apply, hi]
  exact fix_of_isVertex (hv _)

/-- The second matrix gather's start indices, component 1: the table word (n, q) again. -/
theorem idx39_one (x3 : (⟨S2048x32, .i32⟩ : BufTy).Contents (Elt F)) (hv : ∀ i, IsVertex (x3 i)) (n : Fin 2048) (p q : Fin 32) :
    val_main_v39 (F := F) x3 (ix4 n p q 1) = x3 (ix2 n q) := by
  have hi : idx_main_v8 (idx_main_v36 (idx_main_v38 (ix4 n p q (0 : Fin 1)))) = ix2 n q := by
    funext a; match a with | ⟨0, _⟩ => rfl | ⟨1, _⟩ => rfl
  unfold val_main_v39
  rw [cat_one, val_main_v38_apply, val_main_v36_apply, val_main_v34_apply, val_main_v31_apply, val_main_v33_apply,
    val_main_v8_apply, val_main_v30_apply, val_main_v32_apply, val_main_c_7_apply, val_main_c_8_apply, hi]
  exact fix_of_isVertex (hv _)

/-- The feature gather is the feature windows. -/
theorem feat_gather (x0 : (⟨S8x2048x64, .f32⟩ : BufTy).Contents (Elt F)) (x3 : (⟨S2048x32, .i32⟩ : BufTy).Contents (Elt F))
    (hv : ∀ i, IsVertex (x3 i)) : val_main_v6 (F := F) x0 x3 = featWindows x0 x3 := by
  funext i
  -- the start index at (n, j, 0) is the table word (n, j): the fix leaves a vertex number alone
  have e : val_main_v5 (F := F) x3 (ix3 (i 1) (i 2) 0) = x3 (ix2 (i 1) (i 2)) := by
    have hi : idx_main_v5 (ix3 (i 1) (i 2) 0) = ix2 (i 1) (i 2) := by
      funext a; match a with | ⟨0, _⟩ => rfl | ⟨1, _⟩ => rfl
    rw [val_main_v5_apply, val_main_v4_apply, val_main_v1_apply, val_main_v3_apply, val_main_v0_apply, val_main_v2_apply,
      val_main_c_apply, val_main_c_0_apply, hi]
    exact fix_of_isVertex (hv _)
  unfold val_main_v6
  refine (featGather_apply x0 (val_main_v5 (F := F) x3) i).trans ?_
  exact congrArg (fun w => x0 (ix3 (i 0) (node w) (i 3))) e

/-- The first matrix gather is the pair windows. -/
theorem adj_gather (x1 : (⟨S8x2048x2048, .f32⟩ : BufTy).Contents (Elt F)) (x3 : (⟨S2048x32, .i32⟩ : BufTy).Contents (Elt F))
    (hv : ∀ i, IsVertex (x3 i)) : val_main_v24 (F := F) x1 x3 = pairWindows x1 x3 := by
  funext i
  unfold val_main_v24
  refine (pairGather_apply x1 (val_main_v23 (F := F) x3) i).trans ?_
  exact congrArg₂ (fun u v => x1 (ix3 (i 0) (node u) (node v))) (idx23_zero x3 hv (i 1) (i 2) (i 3))
    (idx23_one x3 hv (i 1) (i 2) (i 3))

/-- The second matrix gather is the pair windows. -/
theorem edges_gather (x2 : (⟨S8x2048x2048, .f32⟩ : BufTy).Contents (Elt F)) (x3 : (⟨S2048x32, .i32⟩ : BufTy).Contents (Elt F))
    (hv : ∀ i, IsVertex (x3 i)) : val_main_v40 (F := F) x2 x3 = pairWindows x2 x3 := by
  funext i
  unfold val_main_v40
  refine (pairGather_apply x2 (val_main_v39 (F := F) x3) i).trans ?_
  exact congrArg₂ (fun u v => x2 (ix3 (i 0) (node u) (node v))) (idx39_zero x3 hv (i 1) (i 2) (i 3))
    (idx39_one x3 hv (i 1) (i 2) (i 3))

end Cert.ReferenceIdeal.Windows

end
-- ==== Proof.lean ====
/-
  Neighbourhood windows by one-hot products against jnp's gathers.

  The kernel, for each batch and each block of sixteen vertices, turns the block's rows of the neighbour table
  into 0/1 selectors and multiplies: selector times the feature rows gives the neighbours' features, selector
  times a vertex-by-vertex matrix gives its rows at the neighbours, and a second selector picks those rows'
  columns at the neighbours.  The reference indexes the same arrays directly.  Both are the window functions
  `featWindows` and `pairWindows` of the arguments, provided every table word is a vertex number
  (0 ≤ w < 2048), which the precondition states: then each selector row has exactly one 1, every other product
  is 0 · x = 0 on the extended reals whatever x is, and on the reference's side the negative-index fix and the
  clamp of the start indices change nothing.  No finiteness of the float arguments is used.
-/
import proofs.«401435_j42502996361386_1_alg».proof.Defs
import proofs.«401435_j42502996361386_1_alg».proof.Proof.Gen.Kernel
import proofs.«401435_j42502996361386_1_alg».proof.Proof.Gen.Kernel.Skeleton
import proofs.«401435_j42502996361386_1_alg».proof.Proof.Gen.Kernel.Launch
import proofs.«401435_j42502996361386_1_alg».proof.Proof.Gen.Kernel.Points
import proofs.«401435_j42502996361386_1_alg».proof.Proof.Gen.Kernel.Frame
import proofs.«401435_j42502996361386_1_alg».proof.Proof.Gen.KernelIdeal
import proofs.«401435_j42502996361386_1_alg».proof.Proof.Gen.KernelIdeal.Skeleton
import proofs.«401435_j42502996361386_1_alg».proof.Proof.Gen.KernelIdeal.Launch
import proofs.«401435_j42502996361386_1_alg».proof.Proof.Gen.KernelIdeal.Points
import proofs.«401435_j42502996361386_1_alg».proof.Proof.Gen.KernelIdeal.Frame
import proofs.«401435_j42502996361386_1_alg».proof.Proof.Gen.ReferenceIdeal
import proofs.«401435_j42502996361386_1_alg».proof.Proof.Gen.Pre_finite_inputs
import proofs.«401435_j42502996361386_1_alg».proof.Proof.Gen.KernelIdeal.Value
import proofs.«401435_j42502996361386_1_alg».proof.Proof.Gen.ReferenceIdeal.Run
import proofs.«401435_j42502996361386_1_alg».proof.Proof.Gen.ReferenceIdeal.Read
import proofs.«401435_j42502996361386_1_alg».proof.Proof.Spec
import proofs.«401435_j42502996361386_1_alg».proof.Proof.PreRange
import proofs.«401435_j42502996361386_1_alg».proof.Proof.Blocks
import proofs.«401435_j42502996361386_1_alg».proof.Proof.RefWindows
import Idealize.ShloMosaic.Adequacy
import Idealize.ShloMosaic.Init

noncomputable section

namespace Cert.Proof

open Idealize.ShloMosaic Idealize.SL.Sem Cert.Neighbourhoods

/-- The reference runs, and leaves its arguments as they were: its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- Both programs end with the window functions of the arguments in their three results. -/
theorem algebraic : Cert.algebraic_KernelIdeal_ReferenceIdeal := by
  intro m ρ m' ρ' hpre hagree
  have hv : ∀ (c : Dev Cert.KernelIdeal.nD) (i : Cert.KernelIdeal.S2048x32.Idx),
      IsVertex ((m ((c.tc : Thread Cert.KernelIdeal.nD Cert.KernelIdeal.τ).loc Cert.KernelIdeal.main_arg3) : Cert.KernelIdeal.S2048x32.Idx → BitVec 32) i) :=
    fun c i => Cert.Pre_finite_inputs.Range.isVertex_of_pre _ _ _ _ (hpre c) i
  refine ⟨fun c => featWindows (m ((c.tc : Thread Cert.KernelIdeal.nD Cert.KernelIdeal.τ).loc Cert.KernelIdeal.main_arg0))
      (m ((c.tc : Thread Cert.KernelIdeal.nD Cert.KernelIdeal.τ).loc Cert.KernelIdeal.main_arg3)),
    fun c => pairWindows (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => pairWindows (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Windows.run m ρ hv, ?_⟩
  refine (θ_run Cert.ReferenceIdeal.defs _ _).mono (fun _ h c => ?_) (Cert.ReferenceIdeal.Value.run (F := Ideal) m' ρ')
  obtain ⟨a0, a1, a2, a3⟩ := hagree c
  have hv' : ∀ i : Cert.ReferenceIdeal.S2048x32.Idx,
      IsVertex ((m' ((c.tc : Thread Cert.ReferenceIdeal.nD Cert.ReferenceIdeal.τ).loc Cert.ReferenceIdeal.main_arg3) : Cert.ReferenceIdeal.S2048x32.Idx → BitVec 32) i) :=
    fun i => by rw [a3]; exact hv c i
  refine ⟨(h c).1.trans ?_, (h c).2.1.trans ?_, (h c).2.2.1.trans ?_, (h c).2.2.2⟩
  · rw [Cert.ReferenceIdeal.Read.val_main_v6_eq, Cert.ReferenceIdeal.Windows.feat_gather _ _ hv', a0, a3]
  · rw [Cert.ReferenceIdeal.Read.val_main_v24_eq, Cert.ReferenceIdeal.Windows.adj_gather _ _ hv', a1, a3]
  · rw [Cert.ReferenceIdeal.Read.val_main_v40_eq, Cert.ReferenceIdeal.Windows.edges_gather _ _ hv', a2, a3]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
